-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S8388608 : Shape := ⟨1, ![8388608]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) (main_arg1 : IVec S8388608 32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  main_v3
-- ==== Kernel.lean ====
abbrev S8388608x2 : Shape := ⟨2, ![8388608, 2]⟩
abbrev S8388608 : Shape := ⟨1, ![8388608]⟩
abbrev S8388608x1 : Shape := ⟨2, ![8388608, 1]⟩
abbrev S1x128 : Shape := ⟨2, ![1, 128]⟩
abbrev S131072x2 : Shape := ⟨2, ![131072, 2]⟩
abbrev S131072x1 : Shape := ⟨2, ![131072, 1]⟩
abbrev S131072 : Shape := ⟨1, ![131072]⟩
abbrev S1 : Shape := ⟨1, ![1]⟩
abbrev S1x1 : Shape := ⟨2, ![1, 1]⟩
abbrev S1x10 : Shape := ⟨2, ![1, 10]⟩
abbrev S1x118 : Shape := ⟨2, ![1, 118]⟩
abbrev S_ : Shape := ⟨0, ![]⟩
abbrev S1x127 : Shape := ⟨2, ![1, 127]⟩

abbrev nBuf : Space → Nat
  | .hbm => 27
  | .vmem => 11
  | .smem => 0
  | _ => 0

abbrev bufTy : (tb : Table) → Fin (tcTables nBuf tb) → BufTy
  | .hbm, ⟨0, _⟩ => ⟨S8388608x2, .f32⟩
  | .hbm, ⟨1, _⟩ => ⟨S8388608, .i32⟩
  | .hbm, ⟨2, _⟩ => ⟨S8388608x1, .i32⟩
  | .hbm, ⟨3, _⟩ => ⟨S1x128, .f32⟩
  | .hbm, ⟨4, _⟩ => ⟨S1x10, .f32⟩
  | .hbm, ⟨5, _⟩ => ⟨S_, .f32⟩
  | .hbm, ⟨6, _⟩ => ⟨S1x10, .f32⟩
  | .hbm, ⟨7, _⟩ => ⟨S1x10, .i1⟩
  | .hbm, ⟨8, _⟩ => ⟨S1x10, .f32⟩
  | .hbm, ⟨9, _⟩ => ⟨S_, .f32⟩
  | .hbm, ⟨10, _⟩ => ⟨S_, .f32⟩
  | .hbm, ⟨11, _⟩ => ⟨S1x10, .f32⟩
  | .hbm, ⟨12, _⟩ => ⟨S1x10, .f32⟩
  | .hbm, ⟨13, _⟩ => ⟨S_, .f32⟩
  | .hbm, ⟨14, _⟩ => ⟨S1x10, .f32⟩
  | .hbm, ⟨15, _⟩ => ⟨S1x10, .f32⟩
  | .hbm, ⟨16, _⟩ => ⟨S_, .f32⟩
  | .hbm, ⟨17, _⟩ => ⟨S1x10, .f32⟩
  | .hbm, ⟨18, _⟩ => ⟨S1x10, .f32⟩
  | .hbm, ⟨19, _⟩ => ⟨S_, .f32⟩
  | .hbm, ⟨20, _⟩ => ⟨S1x118, .f32⟩
  | .hbm, ⟨21, _⟩ => ⟨S1x128, .f32⟩
  | .hbm, ⟨22, _⟩ => ⟨S1x128, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S131072x2, .f32⟩
  | .local _ .vmem, ⟨1, _⟩ => ⟨S131072x2, .f32⟩
  | .local _ .vmem, ⟨2, _⟩ => ⟨S131072x1, .i32⟩
  | .local _ .vmem, ⟨3, _⟩ => ⟨S131072x1, .i32⟩
  | .local _ .vmem, ⟨4, _⟩ => ⟨S1x128, .f32⟩
  | .local _ .vmem, ⟨5, _⟩ => ⟨S131072x2, .f32⟩
  | .local _ .vmem, ⟨6, _⟩ => ⟨S131072x2, .f32⟩
  | .local _ .vmem, ⟨7, _⟩ => ⟨S131072x1, .i32⟩
  | .local _ .vmem, ⟨8, _⟩ => ⟨S131072x1, .i32⟩
  | .local _ .vmem, ⟨9, _⟩ => ⟨S1x128, .f32⟩
  | .local _ .vmem, ⟨10, _⟩ => ⟨S1x128, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S131072x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S131072x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S131072x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S8388608_S8388608x1 : S8388608.ShapeCasts S8388608x1
  inb_S1x128_S1x128_0_0 : ∀ a, (![0, 0] : Fin 2 → Nat) a + S1x128.size a ≤ S1x128.size a
  h_S1x128 : 0 < S1x128.numel
  inb_S131072x2_S131072x2_0_0 : ∀ a, (![0, 0] : Fin 2 → Nat) a + S131072x2.size a ≤ S131072x2.size a
  h_S131072x2 : 0 < S131072x2.numel
  inb_S131072x1_S131072x1_0_0 : ∀ a, (![0, 0] : Fin 2 → Nat) a + S131072x1.size a ≤ S131072x1.size a
  h_S131072x1 : 0 < S131072x1.numel
  shapeCasts_S131072x1_S131072x1 : S131072x1.ShapeCasts S131072x1
  iota_S131072x2_d1_w32 : S131072x2.Iotas .tc 32 [1]
  broadcasts_S131072x1_S131072x2 : S131072x1.Broadcasts S131072x2
  natLt_1_32 : 1 < 32
  reduces_S131072x2_S131072 : S131072x2.Reduces [1] S131072
  shapeCasts_S131072_S131072x1 : S131072.ShapeCasts S131072x1
  reduces_S131072x1_S1 : S131072x1.Reduces [0] S1
  shapeCasts_S1_S1x1 : S1.ShapeCasts S1x1
  concatenates_S1x1_S1x1_S1x1_S1x1_S1x1_S1x1_S1x1_S1x1_S1x1_S1x1_S1x10_d1 : Shape.Concatenates [S1x1, S1x1, S1x1, S1x1, S1x1, S1x1, S1x1, S1x1, S1x1, S1x1] S1x10 1
  concatenates_S1x10_S1x118_S1x128_d1 : Shape.Concatenates [S1x10, S1x118] S1x128 1
  shapeCasts_S1x128_S1x128 : S1x128.ShapeCasts S1x128
  slices_S1x128_S1x10_0_0 : S1x128.Slices ![0, 0] S1x10
  bcast_S_S1x10 : S_.BroadcastsInDim S1x10 (![] : Fin 0 → Fin S1x10.rank)
  reducesTo_S1x10_S_d0_1 : S1x10.ReducesTo [0, 1] S_
  h_S_ : 0 < S_.numel
  bcast_S_S1x118 : S_.BroadcastsInDim S1x118 (![] : Fin 0 → Fin S1x118.rank)
  inb_S1x128_S1x1_0_0 : ∀ a, (![0, 0] : Fin 2 → Nat) a + S1x1.size a ≤ S1x128.size a
  h_S1x1 : 0 < S1x1.numel
  inpos_S1x1_p0_0 : ∀ a, (![0, 0] : Fin 2 → Nat) a < S1x1.size a
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  concatenates_S1x1_S1x127_S1x128_d1 : Shape.Concatenates [S1x1, S1x127] S1x128 1
  slices_S1x128_S1x1_0_0 : S1x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072x2.size a ≤ S8388608x2.size a
  hwx0_0 : ∀ i : grid0.Coords, EltTy.bits .f32 = 32 ∨ (Rect.block (s := S8388608x2) S131072x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S131072x1.size a ≤ S8388608x1.size a
  hwx0_1 : ∀ i : grid0.Coords, EltTy.bits .i32 = 32 ∨ (Rect.block (s := S8388608x1) S131072x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S131072x2.size a ≤ S8388608x2.size a
  hwx1_0 : ∀ i : grid1.Coords, EltTy.bits .f32 = 32 ∨ (Rect.block (s := S8388608x2) S131072x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S131072x1.size a ≤ S8388608x1.size a
  hwx1_1 : ∀ i : grid1.Coords, EltTy.bits .i32 = 32 ∨ (Rect.block (s := S8388608x1) S131072x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)

variable [Facts₀]

abbrev win0_0 : Pipeline.Window sig grid0 :=
  Pipeline.Window.ofSpec (Memref.whole main_arg0) S131072x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S131072x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S131072x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S131072x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8388608x2 : Shape := ⟨2, ![8388608, 2]⟩
abbrev S8388608 : Shape := ⟨1, ![8388608]⟩
abbrev S8388608x1 : Shape := ⟨2, ![8388608, 1]⟩
abbrev S1x2 : Shape := ⟨2, ![1, 2]⟩
abbrev S_ : Shape := ⟨0, ![]⟩
abbrev S10 : Shape := ⟨1, ![10]⟩
abbrev S16777216 : Shape := ⟨1, ![16777216]⟩
abbrev S16777216x1 : Shape := ⟨2, ![16777216, 1]⟩
abbrev S8388608x2x1 : Shape := ⟨3, ![8388608, 2, 1]⟩

abbrev nBuf : Space → Nat
  | .hbm => 76
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608, .i32⟩
  | .hbm, ⟨2, _⟩ => ⟨S8388608x1, .i32⟩
  | .hbm, ⟨3, _⟩ => ⟨S1x2, .i32⟩
  | .hbm, ⟨4, _⟩ => ⟨S8388608x2, .i32⟩
  | .hbm, ⟨5, _⟩ => ⟨S8388608x2, .i32⟩
  | .hbm, ⟨6, _⟩ => ⟨S8388608x2, .i1⟩
  | .hbm, ⟨7, _⟩ => ⟨S8388608x2, .f32⟩
  | .hbm, ⟨8, _⟩ => ⟨S8388608x2, .f32⟩
  | .hbm, ⟨9, _⟩ => ⟨S8388608x2, .f32⟩
  | .hbm, ⟨10, _⟩ => ⟨S_, .f32⟩
  | .hbm, ⟨11, _⟩ => ⟨S8388608x2, .f32⟩
  | .hbm, ⟨12, _⟩ => ⟨S8388608x2, .f32⟩
  | .hbm, ⟨13, _⟩ => ⟨S_, .f32⟩
  | .hbm, ⟨14, _⟩ => ⟨S8388608x2, .f32⟩
  | .hbm, ⟨15, _⟩ => ⟨S8388608x2, .f32⟩
  | .hbm, ⟨16, _⟩ => ⟨S8388608x2, .f32⟩
  | .hbm, ⟨17, _⟩ => ⟨S8388608x2, .f32⟩
  | .hbm, ⟨18, _⟩ => ⟨S_, .f32⟩
  | .hbm, ⟨19, _⟩ => ⟨S8388608x2, .f32⟩
  | .hbm, ⟨20, _⟩ => ⟨S8388608x2, .f32⟩
  | .hbm, ⟨21, _⟩ => ⟨S8388608x2, .f32⟩
  | .hbm, ⟨22, _⟩ => ⟨S8388608x2, .i32⟩
  | .hbm, ⟨23, _⟩ => ⟨S_, .f32⟩
  | .hbm, ⟨24, _⟩ => ⟨S10, .f32⟩
  | .hbm, ⟨25, _⟩ => ⟨S16777216, .i32⟩
  | .hbm, ⟨26, _⟩ => ⟨S_, .i32⟩
  | .hbm, ⟨27, _⟩ => ⟨S16777216, .i32⟩
  | .hbm, ⟨28, _⟩ => ⟨S16777216, .i1⟩
  | .hbm, ⟨29, _⟩ => ⟨S_, .i32⟩
  | .hbm, ⟨30, _⟩ => ⟨S16777216, .i32⟩
  | .hbm, ⟨31, _⟩ => ⟨S16777216, .i32⟩
  | .hbm, ⟨32, _⟩ => ⟨S16777216, .i32⟩
  | .hbm, ⟨33, _⟩ => ⟨S16777216x1, .i32⟩
  | .hbm, ⟨34, _⟩ => ⟨S_, .f32⟩
  | .hbm, ⟨35, _⟩ => ⟨S16777216, .f32⟩
  | .hbm, ⟨36, _⟩ => ⟨S10, .f32⟩
  | .hbm, ⟨37, _⟩ => ⟨S_, .f32⟩
  | .hbm, ⟨38, _⟩ => ⟨S10, .f32⟩
  | .hbm, ⟨39, _⟩ => ⟨S10, .i1⟩
  | .hbm, ⟨40, _⟩ => ⟨S10, .i32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S10, .f32⟩
  | .hbm, ⟨45, _⟩ => ⟨S10, .f32⟩
  | .hbm, ⟨46, _⟩ => ⟨S_, .f32⟩
  | .hbm, ⟨47, _⟩ => ⟨S10, .f32⟩
  | .hbm, ⟨48, _⟩ => ⟨S10, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .i32⟩
  | .hbm, ⟨53, _⟩ => ⟨S8388608x2, .i32⟩
  | .hbm, ⟨54, _⟩ => ⟨S8388608x2, .i1⟩
  | .hbm, ⟨55, _⟩ => ⟨S_, .i32⟩
  | .hbm, ⟨56, _⟩ => ⟨S8388608x2, .i32⟩
  | .hbm, ⟨57, _⟩ => ⟨S8388608x2, .i32⟩
  | .hbm, ⟨58, _⟩ => ⟨S8388608x2, .i32⟩
  | .hbm, ⟨59, _⟩ => ⟨S8388608x2x1, .i32⟩
  | .hbm, ⟨60, _⟩ => ⟨S8388608x2, .f32⟩
  | .hbm, ⟨61, _⟩ => ⟨S_, .f32⟩
  | .hbm, ⟨62, _⟩ => ⟨S8388608x2, .f32⟩
  | .hbm, ⟨63, _⟩ => ⟨S8388608x2, .f32⟩
  | .hbm, ⟨64, _⟩ => ⟨S8388608x2, .f32⟩
  | .hbm, ⟨65, _⟩ => ⟨S8388608x2, .f32⟩
  | .hbm, ⟨66, _⟩ => ⟨S8388608x2, .f32⟩
  | .hbm, ⟨67, _⟩ => ⟨S8388608x2, .f32⟩
  | .hbm, ⟨68, _⟩ => ⟨S8388608x2, .f32⟩
  | .hbm, ⟨69, _⟩ => ⟨S8388608x2, .f32⟩
  | .hbm, ⟨70, _⟩ => ⟨S8388608x2, .f32⟩
  | .hbm, ⟨71, _⟩ => ⟨S8388608x2, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_c_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S8388608_S8388608x1_0 : S8388608.BroadcastsInDim S8388608x1 (![0] : Fin 1 → Fin S8388608x1.rank)
  bcast_S8388608x1_S8388608x2_0_1 : S8388608x1.BroadcastsInDim S8388608x2 (![0, 1] : Fin 2 → Fin S8388608x2.rank)
  bcast_S1x2_S8388608x2_0_1 : S1x2.BroadcastsInDim S8388608x2 (![0, 1] : Fin 2 → Fin S8388608x2.rank)
  bcast_S_S8388608x2 : S_.BroadcastsInDim S8388608x2 (![] : Fin 0 → Fin S8388608x2.rank)
  bcast_S_S10 : S_.BroadcastsInDim S10 (![] : Fin 0 → Fin S10.rank)
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  natLt_1_32 : 1 < 32
  reducesTo_S10_S_d0 : S10.ReducesTo [0] S_
  h_S_ : 0 < S_.numel
  bcast_S8388608x2_S8388608x2x1_0_1 : S8388608x2.BroadcastsInDim S8388608x2x1 (![0, 1] : Fin 2 → Fin S8388608x2x1.rank)
  reducesTo_S8388608x2_S_d0_1 : S8388608x2.ReducesTo [0, 1] S_
  scatter_S10_S16777216x1_S16777216_n_0_0_1_wf : ScatterDims.WF S10 S16777216x1 S16777216 [] [0] [0] 1
  gather_S10_S8388608x2x1_S8388608x2_n_0_n_n_0_2_1_wf : GatherDims.WF S10 S8388608x2x1 S8388608x2 [] [0] [] [0] [] 2 ![1]

variable [Facts₀]

def scatter_S10_S16777216x1_S16777216_n_0_0_1 : ScatterDims S10 S16777216x1 S16777216 where
  updateWindowDims := []
  insertedWindowDims := [0]
  scatterDimsToOperandDims := [0]
  indexVectorDim := 1
  wf := scatter_S10_S16777216x1_S16777216_n_0_0_1_wf
def gather_S10_S8388608x2x1_S8388608x2_n_0_n_n_0_2_1 : GatherDims S10 S8388608x2x1 S8388608x2 where
  offsetDims := []
  collapsedSliceDims := [0]
  operandBatchingDims := []
  startIndicesBatchingDims := []
  startIndexMap := [0]
  indexVectorDim := 2
  sliceSizes := ![1]
  wf := gather_S10_S8388608x2x1_S8388608x2_n_0_n_n_0_2_1_wf

class Facts : Prop extends Facts₀ where

variable [Facts]
-- ==== Proof.KStep.lean ====
/-
  One grid point of each kernel as a pure function.

  `hist x t acc`: the histogram kernel's step — the block `acc` plus the ten bin counts of the tile with logits `x`
  and target column `t`, padded with 118 zeros. `lossStep x t w acc`: the loss kernel's step — the block `acc` plus
  the tile's weighted cross-entropy sum under the bin weights read one by one from the first ten entries of `w`, in
  entry 0, padded with 127 zeros. Both are the kernels' own arithmetic, composed from the stored values'
  expressions; the zero blocks are what the first grid point stores before its step.
-/
import proofs.«420279_j11596411700016_1_alg».proof.Proof.Gen.KernelIdeal.Skeleton
import Idealize.ShloMosaic.Lib.Pipeline.FrameBody

noncomputable section

open Idealize.ShloMosaic Idealize.SL.Sem

namespace Cert.KernelIdeal.Step

open Cert.KernelIdeal Cert.KernelIdeal.Gen

variable {F : FTy → Type} [FloatOps F]

/-- One step of the histogram. -/
def hist (x : Vec F S131072x2 .f32) (t : Vec F S131072x1 .i32) (acc : Vec F S1x128 .f32) : FVec F S1x128 .f32 :=
  k0_pay1 (k0_pay3 x t) (k0_pay4 x t) (k0_pay5 x t) (k0_pay6 x t) (k0_pay7 (k0_pay3 x t))
    (k0_pay8 (k0_pay3 x t)) (k0_pay9 (k0_pay3 x t)) (k0_pay10 (k0_pay3 x t)) (k0_pay11 (k0_pay3 x t))
    (k0_pay12 (k0_pay3 x t)) acc

/-- The zero block the histogram's first point stores. -/
abbrev histZero : FVec F S1x128 .f32 := k0_pay2 (F := F)

/-- Entry `k` of the weights' block, as the one-entry vector the kernel loads. -/
abbrev wAt (w : Vec F S1x128 .f32) (k : Nat) (h : ∀ a, (![0, k] : Fin 2 → Nat) a + S1x1.size a ≤ S1x128.size a) : Vec F S1x1 .f32 :=
  View.ld w (Rect.unit ![0, k] S1x1.size h)

/-- One step of the loss. -/
def lossStep (x : Vec F S131072x2 .f32) (t : Vec F S131072x1 .i32) (w : Vec F S1x128 .f32) (acc : Vec F S1x128 .f32) :
    FVec F S1x128 .f32 :=
  k1_pay10 x (k1_pay2 t) (k1_pay3 x t)
    (k1_pay7 (k1_pay3 x t)
      (k1_pay4 x t (wAt w 0 Facts₀.inb_S1x128_S1x1_0_0) (wAt w 1 Facts₀.inb_S1x128_S1x1_0_1))
      (k1_pay5 (wAt w 2 Facts₀.inb_S1x128_S1x1_0_2)) (k1_pay6 x t)
      (wAt w 3 Facts₀.inb_S1x128_S1x1_0_3) (wAt w 4 Facts₀.inb_S1x128_S1x1_0_4)
      (wAt w 5 Facts₀.inb_S1x128_S1x1_0_5) (wAt w 6 Facts₀.inb_S1x128_S1x1_0_6))
    (k1_pay8 (wAt w 7 Facts₀.inb_S1x128_S1x1_0_7)) (k1_pay9 (k1_pay3 x t))
    (wAt w 8 Facts₀.inb_S1x128_S1x1_0_8) (wAt w 9 Facts₀.inb_S1x128_S1x1_0_9) acc

/-- The zero block the loss kernel's first point stores. -/
abbrev lossZero : FVec F S1x128 .f32 := k1_pay1 (F := F)

end Cert.KernelIdeal.Step

end
-- ==== Proof.KRegion0.lean ====
/-
  The histogram kernel, read: what its one output block holds after each grid point, and what the
  output array holds after the run.

  The grid has 64 points; point t sees rows 131072 t … 131072 t + 131071 of the logits and of the
  target column. The output block (1, 128) has a constant index: it stays in its staging buffer from
  one point to the next and is written back once, after the last point. At point 0 the body first
  stores the zero block; at every point it adds the tile's ten bin counts (padded with 118 zeros)
  to the block. `hist x t acc` is that one step as a pure function of the tile's logits `x`, its
  target column `t` and the block's contents `acc` before the step, so the block after point n is
  the fold `acc0 n` of `hist` over the points 0 … n from the zero block, and the output array ends
  at `acc0 63`.
-/
import proofs.«420279_j11596411700016_1_alg».proof.Proof.Gen.KernelIdeal.Frame
import proofs.«420279_j11596411700016_1_alg».proof.Proof.KStep
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable {F : FTy → Type} [FloatOps F]

theorem hz : (![0, 0] : Fin 2 → Nat) = fun _ => 0 := funext fun a => by fin_cases a <;> rfl

open Cert.KernelIdeal.Step (hist)

/-- The zero block the first point stores. -/
abbrev zeroBlock : FVec F S1x128 .f32 := Step.histZero (F := F)

/-- At a point other than the first the body leaves, in the output's staging buffer holding `acc`, one step from `acc`:
    its one covering store's value, whose loads read the whole buffers. -/
theorem out_B (c : Dev nD) (i : grid0.Coords) (a1 : Memref sig .tc .vmem S131072x2 .f32) (h1 : a1.IsWhole)
    (a2 : Memref sig .tc .vmem S131072x1 .i32) (h2 : a2.IsWhole) (a3 : Memref sig .tc .vmem S1x128 .f32) (h3 : a3.IsWhole)
    (hc : ¬cond0_0 i) (x : Vec F S131072x2 .f32) (t : Vec F S131072x1 .i32) (acc : Vec F S1x128 .f32) :
    out0_B_2 c i a1 h1 a2 h2 a3 h3 hc x t acc = hist x t acc := by
  unfold out0_B_2
  rw [View.read_writes_eq_canon _ _ _ (cover0_B_2 c i a1 h1 a2 h2 a3 h3 hc x t acc)]
  unfold kernelRun0_B
  dsimp only
  sl_unfold_words
  rw [View.canon_unit_zero hz]
  simp only [View.readAt_eq_ld, h1.read_unread, h2.read_unread, h3.read_unread, View.ld_unit_zero (S := S131072x2) hz,
    View.ld_unit_zero (S := S131072x1) hz, View.ld_unit_zero (S := S1x128) hz]
  rfl

/-- At the first point the body stores the zero block, reads it back, and leaves one step from the zero block. -/
theorem out_A (c : Dev nD) (i : grid0.Coords) (a1 : Memref sig .tc .vmem S131072x2 .f32) (h1 : a1.IsWhole)
    (a2 : Memref sig .tc .vmem S131072x1 .i32) (h2 : a2.IsWhole) (a3 : Memref sig .tc .vmem S1x128 .f32) (h3 : a3.IsWhole)
    (hc : cond0_0 i) (x : Vec F S131072x2 .f32) (t : Vec F S131072x1 .i32) :
    out0_A_2 c i a1 h1 a2 h2 a3 h3 hc x t = hist x t zeroBlock := by
  unfold out0_A_2
  rw [View.read_writes_eq_canon _ _ _ (cover0_A_2 c i a1 h1 a2 h2 a3 h3 hc x t)]
  unfold kernelRun0_A
  dsimp only
  sl_unfold_words
  rw [View.canon_cons_unit_zero (S := S1x128) hz, View.readCov_unit_zero (S := S1x128) _ hz]
  simp only [View.readAt_eq_ld, h1.read_unread, h2.read_unread, View.ld_unit_zero (S := S131072x2) hz,
    View.ld_unit_zero (S := S131072x1) hz, View.ld_unit_zero (S := S1x128) hz, View.readCov_unit_zero (S := S1x128) _ hz]
  rfl

/-! ## The fold over the grid -/

section Fold

variable (V : (c : Dev nD) → (b : Ref sig .tc) → Buf (Elt F) ((c : Thread nD τ).loc b))

/-- The tile's logits and target column at point `n`, at their literal types. -/
abbrev xblk (c : Dev nD) (n : ℕ) (h : n < cfg0.N) : Vec F S131072x2 .f32 := iblk0 V c 0 ⟨n, h⟩
abbrev tblk (c : Dev nD) (n : ℕ) (h : n < cfg0.N) : Vec F S131072x1 .i32 := iblk0 V c 1 ⟨n, h⟩

/-- The block after point `n`: the steps of points 0 … n from the zero block. -/
def acc0 (c : Dev nD) : (n : ℕ) → n < cfg0.N → Vec F S1x128 .f32
  | 0, h => hist (xblk V c 0 h) (tblk V c 0 h) zeroBlock
  | n + 1, h => hist (xblk V c (n + 1) h) (tblk V c (n + 1) h) (acc0 c n (Nat.lt_of_succ_lt h))

/-- What the output's staging buffer holds after point `n` is the fold — by induction on the point. -/
theorem outsAt_eq (c : Dev nD) : ∀ (n : ℕ) (h : n < cfg0.N), outsAt0 V c n h = acc0 V c n h
  | 0, h => (outsAt0_A V c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr (Nat.zero_mod _)) (xblk V c 0 h) (tblk V c 0 h))
  | n + 1, h => by
    have hN : cfg0.N = 64 := N_0
    have hB : ¬(⟨n + 1, h⟩ : Fin cfg0.N).val % 64 = 0 := by dsimp only; omega
    rw [outsAt0_B V c ⟨n + 1, h⟩ hB]
    refine (out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun h' => hB ((hcond0_0 ⟨n + 1, h⟩).mp h')) (xblk V c (n + 1) h) (tblk V c (n + 1) h)
      (outsAt0 V c n (Nat.lt_of_succ_lt h))).trans ?_
    show hist _ _ (outsAt0 V c n _) = hist _ _ (acc0 V c n _)
    rw [outsAt_eq c n]

/-- The last grid point. -/
abbrev lastPt : Fin cfg0.N := ⟨63, by rw [show cfg0.N = 64 from N_0]; decide⟩

/-- The histogram block after the last point, as contents of the output array (its one block IS the array). -/
abbrev result (c : Dev nD) : Buf (Elt F) ((c : Thread nD τ).loc main_v1) := acc0 V c 63 lastPt.isLt

/-- The one write-back, at point 63, writes it: block (0, 0) of the (1, 128) array read through zero offsets is the array. -/
theorem flushed_eq (c : Dev nD) (t : Fin cfg0.N) (hf : (cfg0.win 2).flush t = true) :
    (dat0 V c).flushed 2 t = ((cfg0.win 2).blk t).view.read (Elt F) (result V c) := by
  have hN : cfg0.N = 64 := N_0
  have h63 : t.val = 63 := by have := (flush0_2 t).mp hf; have := t.isLt; omega
  obtain rfl : t = lastPt := Fin.ext h63
  show (cfg0.win 2).cut (grid0.coords lastPt) ((dat0 V c).after 2 lastPt) = _
  rw [after0_2, outsAt_eq]
  have hz' : (fun a => win0_2.index lastPt a * main_v1.ty.shape.size a) = fun _ => 0 := funext fun a => by fin_cases a <;> decide
  exact (Memref.read_access_unit_zero (Elt F) main_v1 hz' (fun a => by rw [congrFun hz' a]; simp) (result V c)).symm

/-- So the output array ends holding the fold after the last point: point 63's block covers it. -/
theorem final (c : Dev nD) : (dat0 V c).arrAt 2 cfg0.N = result V c :=
  (dat0 V c).arrAt_eq_of_cover 2 (result V c) (flushed_eq V c) fun i =>
    ⟨lastPt, (flush0_2 lastPt).mpr rfl, by
      show i ∈ ((View.whole main_v1).slice (win0_2.rect lastPt)).set
      rw [View.set_slice_whole, Rect.mem_set_unit]
      intro a
      have h0 : (i 0 : Nat) < 1 := (i 0).isLt
      have h1 : (i 1 : Nat) < 128 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 128 from by decide +kernel]; omega⟩

end Fold

end Cert.KernelIdeal.Region0

end
-- ==== Proof.KRegion1.lean ====
/-
  The loss kernel, read: what its one output block holds after each grid point, and what the
  output array holds after the run.

  The grid has 64 points; point t sees rows 131072 t … 131072 t + 131071 of the logits and of the
  target column, and at every point the same (1, 128) block of bin weights (its first ten entries are
  read one at a time). The output block (1, 128) has a constant index: it stays in its staging buffer
  from one point to the next and is written back once, after the last point. At point 0 the body
  first stores the zero block; at every point it adds the tile's weighted cross-entropy sum (in
  entry 0, padded with 127 zeros) to the block. `lossStep x t w acc` is that one step as a pure
  function of the tile's logits `x`, its target column `t`, the weights' block `w` and the block's
  contents `acc` before the step, so the block after point n is the fold `acc1 n` of `lossStep` over
  the points 0 … n from the zero block, and the output array ends at `acc1 63`.
-/
import proofs.«420279_j11596411700016_1_alg».proof.Proof.Gen.KernelIdeal.Frame
import proofs.«420279_j11596411700016_1_alg».proof.Proof.KStep
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.KernelIdeal.Facts₀

variable {F : FTy → Type} [FloatOps F]

theorem hz : (![0, 0] : Fin 2 → Nat) = fun _ => 0 := funext fun a => by fin_cases a <;> rfl

open Cert.KernelIdeal.Step (lossStep)

/-- The zero block the first point stores. -/
abbrev zeroBlock : FVec F S1x128 .f32 := Step.lossZero (F := F)

/-- At a point other than the first the body leaves, in the output's staging buffer holding `acc`, one step from `acc`:
    its one covering store's value, whose loads read the whole buffers (the weights' block entry by entry). -/
theorem out_B (c : Dev nD) (i : grid1.Coords) (a1 : Memref sig .tc .vmem S131072x2 .f32) (h1 : a1.IsWhole)
    (a2 : Memref sig .tc .vmem S131072x1 .i32) (h2 : a2.IsWhole) (a3 : Memref sig .tc .vmem S1x128 .f32) (h3 : a3.IsWhole)
    (a4 : Memref sig .tc .vmem S1x128 .f32) (h4 : a4.IsWhole)
    (hc : ¬cond1_0 i) (x : Vec F S131072x2 .f32) (t : Vec F S131072x1 .i32) (w : Vec F S1x128 .f32) (acc : Vec F S1x128 .f32) :
    out1_B_3 c i a1 h1 a2 h2 a3 h3 a4 h4 hc x t w acc = lossStep x t w acc := by
  unfold out1_B_3
  rw [View.read_writes_eq_canon _ _ _ (cover1_B_3 c i a1 h1 a2 h2 a3 h3 a4 h4 hc x t w acc)]
  unfold kernelRun1_B
  dsimp only
  sl_unfold_words
  rw [View.canon_unit_zero hz]
  simp only [View.readAt_eq_ld, h1.read_unread, h2.read_unread, h3.read_unread, h4.read_unread, View.ld_unit_zero (S := S131072x2) hz,
    View.ld_unit_zero (S := S131072x1) hz, View.ld_unit_zero (S := S1x128) hz]
  rfl

/-- At the first point the body stores the zero block, reads it back, and leaves one step from the zero block. -/
theorem out_A (c : Dev nD) (i : grid1.Coords) (a1 : Memref sig .tc .vmem S131072x2 .f32) (h1 : a1.IsWhole)
    (a2 : Memref sig .tc .vmem S131072x1 .i32) (h2 : a2.IsWhole) (a3 : Memref sig .tc .vmem S1x128 .f32) (h3 : a3.IsWhole)
    (a4 : Memref sig .tc .vmem S1x128 .f32) (h4 : a4.IsWhole)
    (hc : cond1_0 i) (x : Vec F S131072x2 .f32) (t : Vec F S131072x1 .i32) (w : Vec F S1x128 .f32) :
    out1_A_3 c i a1 h1 a2 h2 a3 h3 a4 h4 hc x t w = lossStep x t w zeroBlock := by
  unfold out1_A_3
  rw [View.read_writes_eq_canon _ _ _ (cover1_A_3 c i a1 h1 a2 h2 a3 h3 a4 h4 hc x t w)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S131072x2) hz,
    View.ld_unit_zero (S := S131072x1) hz, View.ld_unit_zero (S := S1x128) hz, View.readCov_unit_zero (S := S1x128) _ hz]
  rfl

/-! ## The fold over the grid -/

section Fold

variable (V : (c : Dev nD) → (b : Ref sig .tc) → Buf (Elt F) ((c : Thread nD τ).loc b))

/-- The tile's logits, its target column and the weights' block at point `n`, at their literal types. -/
abbrev xblk (c : Dev nD) (n : ℕ) (h : n < cfg1.N) : Vec F S131072x2 .f32 := iblk1 V c 0 ⟨n, h⟩
abbrev tblk (c : Dev nD) (n : ℕ) (h : n < cfg1.N) : Vec F S131072x1 .i32 := iblk1 V c 1 ⟨n, h⟩
abbrev wblk (c : Dev nD) (n : ℕ) (h : n < cfg1.N) : Vec F S1x128 .f32 := iblk1 V c 2 ⟨n, h⟩

/-- The block after point `n`: the steps of points 0 … n from the zero block. -/
def acc1 (c : Dev nD) : (n : ℕ) → n < cfg1.N → Vec F S1x128 .f32
  | 0, h => lossStep (xblk V c 0 h) (tblk V c 0 h) (wblk V c 0 h) zeroBlock
  | n + 1, h => lossStep (xblk V c (n + 1) h) (tblk V c (n + 1) h) (wblk V c (n + 1) h) (acc1 c n (Nat.lt_of_succ_lt h))

/-- What the output's staging buffer holds after point `n` is the fold — by induction on the point. -/
theorem outsAt_eq (c : Dev nD) : ∀ (n : ℕ) (h : n < cfg1.N), outsAt1 V c n h = acc1 V c n h
  | 0, h => (outsAt1_A V c ⟨0, h⟩ rfl).trans
      (out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
        (ms1_3 ⟨0, h⟩) (hs1_3 ⟨0, h⟩) ((hcond1_0 ⟨0, h⟩).mpr (Nat.zero_mod _)) (xblk V c 0 h) (tblk V c 0 h) (wblk V c 0 h))
  | n + 1, h => by
    have hN : cfg1.N = 64 := N_1
    have hB : ¬(⟨n + 1, h⟩ : Fin cfg1.N).val % 64 = 0 := by dsimp only; omega
    rw [outsAt1_B V c ⟨n + 1, h⟩ hB]
    refine (out_B c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (fun h' => hB ((hcond1_0 ⟨n + 1, h⟩).mp h'))
      (xblk V c (n + 1) h) (tblk V c (n + 1) h) (wblk V c (n + 1) h) (outsAt1 V c n (Nat.lt_of_succ_lt h))).trans ?_
    show lossStep _ _ _ (outsAt1 V c n _) = lossStep _ _ _ (acc1 V c n _)
    rw [outsAt_eq c n]

/-- The last grid point. -/
abbrev lastPt : Fin cfg1.N := ⟨63, by rw [show cfg1.N = 64 from N_1]; decide⟩

/-- The block after the last point, as contents of the output array (its one block IS the array). -/
abbrev result (c : Dev nD) : Buf (Elt F) ((c : Thread nD τ).loc main_v15) := acc1 V c 63 lastPt.isLt

/-- The one write-back, at point 63, writes it: block (0, 0) of the (1, 128) array read through zero offsets is the array. -/
theorem flushed_eq (c : Dev nD) (t : Fin cfg1.N) (hf : (cfg1.win 3).flush t = true) :
    (dat1 V c).flushed 3 t = ((cfg1.win 3).blk t).view.read (Elt F) (result V c) := by
  have hN : cfg1.N = 64 := N_1
  have h63 : t.val = 63 := by have := (flush1_3 t).mp hf; have := t.isLt; omega
  obtain rfl : t = lastPt := Fin.ext h63
  show (cfg1.win 3).cut (grid1.coords lastPt) ((dat1 V c).after 3 lastPt) = _
  rw [after1_3, outsAt_eq]
  have hz' : (fun a => win1_3.index lastPt a * main_v15.ty.shape.size a) = fun _ => 0 := funext fun a => by fin_cases a <;> decide
  exact (Memref.read_access_unit_zero (Elt F) main_v15 hz' (fun a => by rw [congrFun hz' a]; simp) (result V c)).symm

/-- So the output array ends holding the fold after the last point: point 63's block covers it. -/
theorem final (c : Dev nD) : (dat1 V c).arrAt 3 cfg1.N = result V c :=
  (dat1 V c).arrAt_eq_of_cover 3 (result V c) (flushed_eq V c) fun i =>
    ⟨lastPt, (flush1_3 lastPt).mpr rfl, by
      show i ∈ ((View.whole main_v15).slice (win1_3.rect lastPt)).set
      rw [View.set_slice_whole, Rect.mem_set_unit]
      intro a
      have h0 : (i 0 : Nat) < 1 := (i 0).isLt
      have h1 : (i 1 : Nat) < 128 := (i 1).isLt
      match a with
      | ⟨0, _⟩ => show win1_3.index lastPt 0 * win1_3.size 0 ≤ (i 0 : Nat) ∧ (i 0 : Nat) < win1_3.index lastPt 0 * win1_3.size 0 + win1_3.xsize (grid1.coords lastPt) 0
                  rw [show win1_3.index lastPt 0 * win1_3.size 0 = 0 from by decide +kernel, show win1_3.xsize (grid1.coords lastPt) 0 = 1 from by decide +kernel]; omega
      | ⟨1, _⟩ => show win1_3.index lastPt 1 * win1_3.size 1 ≤ (i 1 : Nat) ∧ (i 1 : Nat) < win1_3.index lastPt 1 * win1_3.size 1 + win1_3.xsize (grid1.coords lastPt) 1
                  rw [show win1_3.index lastPt 1 * win1_3.size 1 = 0 from by decide +kernel, show win1_3.xsize (grid1.coords lastPt) 1 = 128 from by decide +kernel]; omega⟩

end Fold

end Cert.KernelIdeal.Region1

end
-- ==== Proof.KBlocks.lean ====
/-
  A tile's blocks, read at an entry of the arrays they are cut from.

  At grid point n (of either kernel) the logits' block is rows 131072 n … 131072 n + 131071 of the logits, both
  columns; the target column's block is the same rows of the target column; the loss kernel's weights' block is the
  whole (1, 128) array at every point.
-/
import proofs.«420279_j11596411700016_1_alg».proof.Proof.KRegion0
import proofs.«420279_j11596411700016_1_alg».proof.Proof.KRegion1
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (V : (c : Dev nD) → (b : Ref sig .tc) → Buf (Elt F) ((c : Thread nD τ).loc b))

/-- The block indices of the histogram kernel's input windows at point t: (t, 0). -/
theorem idx0 : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- The block indices of the loss kernel's input windows at point t: (t, 0) for the logits and the targets, (0, 0) for the weights. -/
theorem idx1 : ∀ t : Fin cfg1.N, win1_0.index t 0 = t.val ∧ win1_0.index t 1 = 0 ∧ win1_1.index t 0 = t.val ∧ win1_1.index t 1 = 0
    ∧ win1_2.index t 0 = 0 ∧ win1_2.index t 1 = 0 :=
  (by decide +kernel : ∀ t : Fin grid1.N, win1_0.index t 0 = t.val ∧ win1_0.index t 1 = 0 ∧ win1_1.index t 0 = t.val ∧ win1_1.index t 1 = 0
    ∧ win1_2.index t 0 = 0 ∧ win1_2.index t 1 = 0)

/-- Row 131072 n + r of an array of 8388608 rows, for a point n < 64 and a row r of the tile. -/
def row (n : ℕ) (hn : n < 64) (r : Fin 131072) : Fin 8388608 := ⟨131072 * n + r.val, by have := r.isLt; omega⟩

/-- The histogram kernel's logits' block at point n, entry (r, cc): row 131072 n + r of the logits. -/
theorem xblk0_apply (c : Dev nD) (n : ℕ) (h : n < cfg0.N) (r : Fin 131072) (cc : Fin 2) :
    Region0.xblk V c n h (ix2 r cc)
      = (V c main_arg0 : S8388608x2.Idx → Elt F .f32) (ix2 (row n (lt_of_lt_of_eq h N_0) r) cc) := by
  have hi := idx0 ⟨n, h⟩
  show iblk0 V c 0 ⟨n, h⟩ (ix2 r cc) = _
  unfold iblk0
  rw [View.read_apply]
  show V c main_arg0 _ = V c main_arg0 _
  congr 1
  funext a
  apply Fin.ext
  match a with
  | ⟨0, _⟩ => show win0_0.index ⟨n, h⟩ 0 * 131072 + 1 * r.val = 131072 * n + r.val; rw [hi.1]; clear hi; show n * 131072 + 1 * r.val = 131072 * n + r.val; omega
  | ⟨1, _⟩ => show win0_0.index ⟨n, h⟩ 1 * 2 + 1 * cc.val = cc.val; rw [hi.2.1]; omega

/-- The histogram kernel's target block at point n, entry (r, 0): row 131072 n + r of the target column. -/
theorem tblk0_apply (c : Dev nD) (n : ℕ) (h : n < cfg0.N) (r : Fin 131072) :
    Region0.tblk V c n h (ix2 r (0 : Fin 1))
      = (V c main_v0 : S8388608x1.Idx → Elt F .i32) (ix2 (row n (lt_of_lt_of_eq h N_0) r) (0 : Fin 1)) := by
  have hi := idx0 ⟨n, h⟩
  show iblk0 V c 1 ⟨n, h⟩ (ix2 r (0 : Fin 1)) = _
  unfold iblk0
  rw [View.read_apply]
  show V c main_v0 _ = V c main_v0 _
  congr 1
  funext a
  apply Fin.ext
  match a with
  | ⟨0, _⟩ => show win0_1.index ⟨n, h⟩ 0 * 131072 + 1 * r.val = 131072 * n + r.val; rw [hi.2.2.1]; clear hi; show n * 131072 + 1 * r.val = 131072 * n + r.val; omega
  | ⟨1, _⟩ => show win0_1.index ⟨n, h⟩ 1 * 1 + 1 * 0 = 0; rw [hi.2.2.2]

/-- The loss kernel's logits' block at point n, entry (r, cc): row 131072 n + r of the logits. -/
theorem xblk1_apply (c : Dev nD) (n : ℕ) (h : n < cfg1.N) (r : Fin 131072) (cc : Fin 2) :
    Region1.xblk V c n h (ix2 r cc)
      = (V c main_arg0 : S8388608x2.Idx → Elt F .f32) (ix2 (row n (lt_of_lt_of_eq h N_1) r) cc) := by
  have hi := idx1 ⟨n, h⟩
  show iblk1 V c 0 ⟨n, h⟩ (ix2 r cc) = _
  unfold iblk1
  rw [View.read_apply]
  show V c main_arg0 _ = V c main_arg0 _
  congr 1
  funext a
  apply Fin.ext
  match a with
  | ⟨0, _⟩ => show win1_0.index ⟨n, h⟩ 0 * 131072 + 1 * r.val = 131072 * n + r.val; rw [hi.1]; clear hi; show n * 131072 + 1 * r.val = 131072 * n + r.val; omega
  | ⟨1, _⟩ => show win1_0.index ⟨n, h⟩ 1 * 2 + 1 * cc.val = cc.val; rw [hi.2.1]; omega

/-- The loss kernel's target block at point n, entry (r, 0): row 131072 n + r of the target column. -/
theorem tblk1_apply (c : Dev nD) (n : ℕ) (h : n < cfg1.N) (r : Fin 131072) :
    Region1.tblk V c n h (ix2 r (0 : Fin 1))
      = (V c main_v0 : S8388608x1.Idx → Elt F .i32) (ix2 (row n (lt_of_lt_of_eq h N_1) r) (0 : Fin 1)) := by
  have hi := idx1 ⟨n, h⟩
  show iblk1 V c 1 ⟨n, h⟩ (ix2 r (0 : Fin 1)) = _
  unfold iblk1
  rw [View.read_apply]
  show V c main_v0 _ = V c main_v0 _
  congr 1
  funext a
  apply Fin.ext
  match a with
  | ⟨0, _⟩ => show win1_1.index ⟨n, h⟩ 0 * 131072 + 1 * r.val = 131072 * n + r.val; rw [hi.2.2.1]; clear hi; show n * 131072 + 1 * r.val = 131072 * n + r.val; omega
  | ⟨1, _⟩ => show win1_1.index ⟨n, h⟩ 1 * 1 + 1 * 0 = 0; rw [hi.2.2.2.1]

/-- The loss kernel's weights' block at any point is the whole weights' array. -/
theorem wblk1_apply (c : Dev nD) (n : ℕ) (h : n < cfg1.N) (j : Fin 128) :
    Region1.wblk V c n h (ix2 (0 : Fin 1) j) = (V c main_v14 : S1x128.Idx → Elt F .f32) (ix2 (0 : Fin 1) j) := by
  have hi := idx1 ⟨n, h⟩
  show iblk1 V c 2 ⟨n, h⟩ (ix2 (0 : Fin 1) j) = _
  unfold iblk1
  rw [View.read_apply]
  show V c main_v14 _ = V c main_v14 _
  congr 1
  funext a
  apply Fin.ext
  match a with
  | ⟨0, _⟩ => show win1_2.index ⟨n, h⟩ 0 * 1 + 1 * 0 = 0; rw [hi.2.2.2.2.1]
  | ⟨1, _⟩ => show win1_2.index ⟨n, h⟩ 1 * 128 + 1 * j.val = j.val; rw [hi.2.2.2.2.2]; omega

end Cert.KernelIdeal.Blocks

end
-- ==== Proof.Spec.lean ====
/-
  The gradient-harmonised loss, as one function of the two argument arrays.

  For logits X : [B, 2] and targets T : [B] (B = 8388608), every entry (b, c) has
    y   = 1 if T b = c else 0                     (the one-hot target),
    g   = |sigmoid (X b c) - y|                   (the gradient magnitude),
    bin = floor (g * 9.99989986…) as an integer   (its histogram bin),
    bce = max x 0 - x * y + log (1 + exp (-|x|))  (the stable cross-entropy).
  The histogram counts the entries of each of the ten bins; a bin's weight is
  N / max (count * (number of non-empty bins), 0.0001) with N = 2^24 = 2 B; and the loss is the
  sum over all entries of (the weight of the entry's bin) * bce, divided by N.

  The weight of an entry is written here as the sum over the ten bins of (1 if the entry is in
  the bin else 0) * (the bin's weight): that is how a program without a gather forms it, and it
  is the table's entry at the bin whenever the bin is one of the ten (`weight_of_lt`).
  All sums are sums of extended reals; no order or grouping is chosen.
-/
import Idealize.ShloMosaic.PureOps.Ideal
import Idealize.ShloMosaic.PureOps.Ideal.Laws
import Idealize.ShloMosaic.Lib.ValueIdx

noncomputable section

namespace Cert.Ghm

open Idealize.ShloMosaic Idealize.ShloMosaic.ValueIdx

/-- The logits' shape and the targets' shape. -/
abbrev SX : Shape := ⟨2, ![8388608, 2]⟩
abbrev ST : Shape := ⟨1, ![8388608]⟩

/-- The number of bins less 0.0001, as the single-precision word both programs carry. -/
def cBin : EReal := Ideal.ofBits .f32 0x411FFF97#32
/-- The floor 0.0001 under a bin's denominator, as its single-precision word. -/
def epsGd : EReal := Ideal.ofBits .f32 0x38D1B717#32
/-- N = 2^24, the number of entries, as its single-precision word. -/
def nTot : EReal := Ideal.ofBits .f32 0x4B800000#32

/-- The one-hot target of class `c` for the target word `t`. -/
def hot (t : BitVec 32) (c : Fin 2) : EReal := if t = BitVec.ofNat 32 c.val then 1 else 0

/-- The histogram bin of a logit `x` against its one-hot target `y`: floor (|sigmoid x - y| * cBin), as a
    32-bit integer. -/
def binOf (x y : EReal) : BitVec 32 :=
  Ideal.fptosi 32 (Ideal.liftRound Int.floor (max (Ideal.logistic x - y) (-(Ideal.logistic x - y)) * cBin))

/-- The stable binary cross-entropy with logits. -/
def bce (x y : EReal) : EReal := max x 0 - x * y + Ideal.log1p (Ideal.exp (-(max x (-x))))

/-- 1 if the bin word `v` is bin `k`, else 0. -/
def mask (v : BitVec 32) (k : Fin 10) : EReal := if v = BitVec.ofNat 32 k.val then 1 else 0

/-- The bin of entry (b, c). -/
def binAt (X : SX.Idx → EReal) (T : ST.Idx → BitVec 32) (b : Fin 8388608) (c : Fin 2) : BitVec 32 :=
  binOf (X (ix2 b c)) (hot (T (ix1 b)) c)

/-- The histogram: how many entries fall in bin `k`. -/
def count (X : SX.Idx → EReal) (T : ST.Idx → BitVec 32) (k : Fin 10) : EReal :=
  ∑ b : Fin 8388608, ∑ c : Fin 2, mask (binAt X T b c) k

/-- How many bins are non-empty. -/
def nonempty (cnt : Fin 10 → EReal) : EReal := ∑ k : Fin 10, if 0 < cnt k then (1 : EReal) else 0

/-- The weight of bin `k`: N / max (count k * nonempty, 0.0001). -/
def beta (cnt : Fin 10 → EReal) (k : Fin 10) : EReal := Ideal.div nTot (max (cnt k * nonempty cnt) epsGd)

/-- The weight of an entry whose bin word is `v`, from the table `β` of the bins' weights. -/
def weight (β : Fin 10 → EReal) (v : BitVec 32) : EReal := ∑ k : Fin 10, mask v k * β k

/-- The weighted cross-entropy of entry (b, c). -/
def term (X : SX.Idx → EReal) (T : ST.Idx → BitVec 32) (β : Fin 10 → EReal) (b : Fin 8388608) (c : Fin 2) : EReal :=
  weight β (binAt X T b c) * bce (X (ix2 b c)) (hot (T (ix1 b)) c)

/-- The sum of the weighted cross-entropies of all entries. -/
def total (X : SX.Idx → EReal) (T : ST.Idx → BitVec 32) : EReal :=
  ∑ b : Fin 8388608, ∑ c : Fin 2, term X T (beta (count X T)) b c

/-- The loss: the weighted mean. -/
def loss (X : SX.Idx → EReal) (T : ST.Idx → BitVec 32) : EReal := Ideal.div (total X T) nTot

/-- A bin word that is one of the ten bins takes that bin's weight: the other nine terms vanish
    (0 * x = 0 for every extended real x). -/
theorem weight_of_eq (β : Fin 10 → EReal) (v : BitVec 32) (k : Fin 10) (h : v = BitVec.ofNat 32 k.val) :
    weight β v = β k := by
  unfold weight
  rw [Finset.sum_eq_single k]
  · unfold mask; rw [if_pos h, one_mul]
  · intro k' _ hne
    unfold mask
    rw [if_neg, zero_mul]
    intro h'
    apply hne
    have := congrArg BitVec.toNat (h'.symm.trans h)
    simp only [BitVec.toNat_ofNat] at this
    have h1 : k'.val < 10 := k'.isLt
    have h2 : k.val < 10 := k.isLt
    exact Fin.ext (by omega)
  · intro hn; exact absurd (Finset.mem_univ k) hn

end Cert.Ghm

end
-- ==== Proof.KHost.lean ====
/-
  The host operations around the two kernels, as pure functions, and what they are over the extended reals.

  `targetCol`: the targets [B] viewed as a column [B, 1] (before the histogram kernel).
  `betaPad`: from the histogram kernel's (1, 128) block to the loss kernel's (1, 128) block of bin weights — the
  first ten entries cnt are the bin counts; nonempty = the sum of (1 where cnt > 0 else 0); entry k < 10 of the
  result is N / max (cnt k * nonempty, 0.0001); the other 118 entries are 0.
  `finish`: from the loss kernel's (1, 128) block to the result — entry (0, 0) divided by N.
-/
import proofs.«420279_j11596411700016_1_alg».proof.Proof.Gen.KernelIdeal
import proofs.«420279_j11596411700016_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.HostStages

open Cert.KernelIdeal

variable {F : FTy → Type} [FloatOps F]

/-- The targets as a column. -/
def targetCol (t : (⟨S8388608, .i32⟩ : BufTy).Contents (Elt F)) : (⟨S8388608x1, .i32⟩ : BufTy).Contents (Elt F) :=
  shapeCast S8388608x1 t Facts₀.shapeCasts_S8388608_S8388608x1

/-- The bin counts: the first ten entries of the histogram block. -/
def counts (h : (⟨S1x128, .f32⟩ : BufTy).Contents (Elt F)) : (⟨S1x10, .f32⟩ : BufTy).Contents (Elt F) :=
  extractStridedSlice S1x10 ![0, 0] h Facts₀.slices_S1x128_S1x10_0_0

/-- The number of non-empty bins, as a float scalar. -/
def nonemptyOf (cnt : (⟨S1x10, .f32⟩ : BufTy).Contents (Elt F)) : (⟨S_, .f32⟩ : BufTy).Contents (Elt F) :=
  Host.reduceAdd (uitofp (F := F) .f32 (cmpf (F := F) .ogt cnt (broadcastInDim S1x10 ![] Facts₀.bcast_S_S1x10 (constant S_ .f32 0x00000000#32))))
    (constant S_ .f32 0x00000000#32) Facts₀.reducesTo_S1x10_S_d0_1 Facts₀.h_S_

/-- The bin weights' block from the histogram block. -/
def betaPad (h : (⟨S1x128, .f32⟩ : BufTy).Contents (Elt F)) : (⟨S1x128, .f32⟩ : BufTy).Contents (Elt F) :=
  concatenate S1x128 1
    [⟨S1x10, Host.divf (broadcastInDim S1x10 ![] Facts₀.bcast_S_S1x10 (constant S_ .f32 0x4B800000#32))
        (maximumf (mulf (counts h) (broadcastInDim S1x10 ![] Facts₀.bcast_S_S1x10 (nonemptyOf (counts h))))
          (broadcastInDim S1x10 ![] Facts₀.bcast_S_S1x10 (constant S_ .f32 0x38D1B717#32)))⟩,
     ⟨S1x118, broadcastInDim S1x118 ![] Facts₀.bcast_S_S1x118 (constant S_ .f32 0x00000000#32)⟩]
    Facts₀.concatenates_S1x10_S1x118_S1x128_d1

/-- The result from the loss block. -/
def finish (s : (⟨S1x128, .f32⟩ : BufTy).Contents (Elt F)) : (⟨S_, .f32⟩ : BufTy).Contents (Elt F) :=
  Host.divf (shapeCast S_ (extractStridedSlice S1x1 ![0, 0] s Facts₀.slices_S1x128_S1x1_0_0) Facts₀.shapeCasts_S1x1_S_)
    (constant S_ .f32 0x4B800000#32)

/-! ## Over the extended reals -/

/-! ### The layout operations of these stages read at explicit coordinates -/

/-- A scalar broadcast to any shape reads the scalar at every index. -/
theorem bcastScalar_apply {α : Type} {t : Shape} (h : S_.BroadcastsInDim t (![] : Fin 0 → Fin t.rank)) (x : S_.Idx → α) (j : t.Idx) :
    broadcastInDim t (![] : Fin 0 → Fin t.rank) h x j = x ix0 :=
  broadcastInDim_apply _ h x j ix0 (fun a => a.elim0)

/-- The slice at offset (0, 0) of a (1, 128) block read at (0, k) is the block at (0, k). -/
theorem slice00_apply {α : Type} {m : Nat} (x : S1x128.Idx → α) (h : S1x128.Slices ![0, 0] (⟨2, ![1, m]⟩ : Shape))
    (k : Fin m) (k' : Fin 128) (hk : k'.val = k.val) :
    extractStridedSlice (⟨2, ![1, m]⟩ : Shape) ![0, 0] x h (ix2 (0 : Fin 1) k) = x (ix2 (0 : Fin 1) k') := by
  refine extractStridedSlice_apply _ x h _ _ fun a => ?_
  match a with
  | ⟨0, _⟩ => rfl
  | ⟨1, _⟩ => show k'.val = 0 + k.val; omega

/-- Entry (b, 0) of the target column is target b. -/
theorem targetCol_apply (t : (⟨S8388608, .i32⟩ : BufTy).Contents (Elt Ideal)) (b : Fin 8388608) :
    targetCol (F := Ideal) t (ix2 b (0 : Fin 1)) = t (ix1 b) := by
  unfold targetCol
  refine shapeCast_apply t _ (ix2 b (0 : Fin 1)) (ix1 b) ?_
  rw [Shape.rowMajor_val_one, Shape.rowMajor_val_two]
  show b.val = b.val * 1 + 0
  omega

/-! ### The bin counts and the number of non-empty bins -/

/-- The bin counts at (0, k) are the histogram block at (0, k). -/
theorem counts_apply (h : (⟨S1x128, .f32⟩ : BufTy).Contents (Elt Ideal)) (k : Fin 10) (k' : Fin 128) (hk : k'.val = k.val) :
    counts (F := Ideal) h (ix2 (0 : Fin 1) k) = h (ix2 (0 : Fin 1) k') := by
  unfold counts
  exact slice00_apply h Facts₀.slices_S1x128_S1x10_0_0 k k' hk

/-- The comparison "x is above zero" converted to a float is 1 where x is positive and 0 elsewhere. -/
theorem posFlag (x : EReal) :
    (((Ideal.cmp .ogt x (Ideal.ofBits .f32 0x00000000#32)).toNat : ℝ) : EReal) = if 0 < x then (1 : EReal) else 0 := by
  rw [Ideal.ofBits_zero_f32]
  unfold Ideal.cmp
  by_cases hx : 0 < x
  · rw [if_pos hx]
    simp [hx]
  · rw [if_neg hx]
    simp [hx]

/-- The number of non-empty bins is the sum over the ten bins of (1 where the count is positive, else 0). -/
theorem nonemptyOf_apply (cnt : (⟨S1x10, .f32⟩ : BufTy).Contents (Elt Ideal)) (i : S_.Idx) :
    nonemptyOf (F := Ideal) cnt i = ∑ k : Fin 10, if 0 < cnt (ix2 (0 : Fin 1) k) then (1 : EReal) else 0 := by
  unfold nonemptyOf Host.reduceAdd
  rw [Ideal.hostReduceAdd_def, Ideal.hostReduceAdd_total _ (fun b => b.elim0), sum_idx2, Fin.sum_univ_one]
  show Ideal.ofBits .f32 0x00000000#32 + _ = _
  rw [Ideal.ofBits_zero_f32, zero_add]
  exact Finset.sum_congr rfl fun k _ => posFlag (cnt (ix2 (0 : Fin 1) k))

/-- Entry k < 10 of the weights' block is the weight of bin k for the counts in the first ten entries of the histogram block. -/
theorem betaPad_apply (h : (⟨S1x128, .f32⟩ : BufTy).Contents (Elt Ideal)) (k : Fin 10) :
    betaPad (F := Ideal) h (ix2 (0 : Fin 1) (⟨k.val, by have := k.isLt; omega⟩ : Fin 128))
      = Cert.Ghm.beta (fun k' : Fin 10 => h (ix2 (0 : Fin 1) (⟨k'.val, by have := k'.isLt; omega⟩ : Fin 128))) k := by
  unfold betaPad
  refine (concatenate_pair_apply_left (t := S1x128) (s₁ := S1x10) (s₂ := S1x118) (1 : Fin 2) _ _
    Facts₀.concatenates_S1x10_S1x118_S1x128_d1 _ rfl (ix2 (0 : Fin 1) k) ?_).trans ?_
  · intro b
    match b with
    | ⟨0, _⟩ => rfl
    | ⟨1, _⟩ => rfl
  · unfold Cert.Ghm.beta Cert.Ghm.nonempty Cert.Ghm.nTot Cert.Ghm.epsGd
    have e1 : counts (F := Ideal) h (ix2 (0 : Fin 1) k)
        = h (ix2 (0 : Fin 1) (⟨k.val, by have := k.isLt; omega⟩ : Fin 128)) := counts_apply h k _ rfl
    have e2 : broadcastInDim S1x10 (![] : Fin 0 → Fin S1x10.rank) Facts₀.bcast_S_S1x10 (nonemptyOf (F := Ideal) (counts h)) (ix2 (0 : Fin 1) k)
        = ∑ k' : Fin 10, if 0 < h (ix2 (0 : Fin 1) (⟨k'.val, by have := k'.isLt; omega⟩ : Fin 128)) then (1 : EReal) else 0 := by
      rw [bcastScalar_apply, nonemptyOf_apply]
      exact Finset.sum_congr rfl fun k' _ => by
        rw [counts_apply h k' (⟨k'.val, by have := k'.isLt; omega⟩ : Fin 128) rfl]
    show Ideal.div (Ideal.ofBits .f32 0x4B800000#32)
        (max (counts (F := Ideal) h (ix2 (0 : Fin 1) k)
            * broadcastInDim S1x10 (![] : Fin 0 → Fin S1x10.rank) Facts₀.bcast_S_S1x10 (nonemptyOf (F := Ideal) (counts h)) (ix2 (0 : Fin 1) k))
          (Ideal.ofBits .f32 0x38D1B717#32)) = _
    rw [e1, e2]

/-- The result is entry (0, 0) of the loss block divided by N. -/
theorem finish_apply (s : (⟨S1x128, .f32⟩ : BufTy).Contents (Elt Ideal)) (i : S_.Idx) :
    finish (F := Ideal) s i = Ideal.div (s (ix2 (0 : Fin 1) (0 : Fin 128))) Cert.Ghm.nTot := by
  unfold finish Cert.Ghm.nTot
  show Ideal.div (shapeCast S_ (extractStridedSlice S1x1 ![0, 0] s Facts₀.slices_S1x128_S1x1_0_0) Facts₀.shapeCasts_S1x1_S_ i)
      (Ideal.ofBits .f32 0x4B800000#32) = _
  refine congrArg (fun z => Ideal.div z (Ideal.ofBits .f32 0x4B800000#32)) ?_
  refine (shapeCast_apply _ Facts₀.shapeCasts_S1x1_S_ i (ix2 (0 : Fin 1) (0 : Fin 1)) ?_).trans ?_
  · rw [Shape.rowMajor_val_two]
    have hlt : (S_.rowMajor i).val < 1 := (S_.rowMajor i).isLt
    show 0 * 1 + 0 = (S_.rowMajor i).val
    omega
  · exact slice00_apply s Facts₀.slices_S1x128_S1x1_0_0 (0 : Fin 1) (0 : Fin 128) rfl

end Cert.KernelIdeal.HostStages

end
-- ==== Proof.KBoundary.lean ====
/-
  The contents of the buffers at the boundaries between the host stretches and the two kernels.

  Before the histogram kernel the logits are as launched and the target column is the targets viewed as a column.
  The histogram kernel changes only its output array, which ends at the fold of its steps. The host stretch after
  it leaves the logits and the target column alone and writes the bin weights' block, a function of the histogram
  block. The loss kernel changes only its output array, which ends at the fold of its steps, and the last host
  stretch writes the result, a function of that block.
-/
import proofs.«420279_j11596411700016_1_alg».proof.Proof.KRegion0
import proofs.«420279_j11596411700016_1_alg».proof.Proof.KRegion1
import proofs.«420279_j11596411700016_1_alg».proof.Proof.KHost
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Boundary

open Cert.KernelIdeal Cert.KernelIdeal.Gen

variable {F : FTy → Type} [FloatOps F]
variable (m : (ℓ : Loc nD τ sig) → Buf (Elt F) ℓ) (ρ : Dev nD → PrngReg)

/-- At the histogram kernel's entry the logits are as launched. -/
theorem V1_arg0 (c : Dev nD) : V1 m ρ c main_arg0 = m ((c : Thread nD τ).loc main_arg0) := by
  show StableHlo.after hostOps0 (W0 m ρ c) (Proc.devRef .tc main_arg0) = _
  after_results

/-- At the histogram kernel's entry the target column is the targets as a column. -/
theorem V1_v0 (c : Dev nD) : V1 m ρ c main_v0 = HostStages.targetCol (m ((c : Thread nD τ).loc main_arg1)) := by
  show StableHlo.after hostOps0 (W0 m ρ c) (Proc.devRef .tc main_v0) = _
  after_results
  rfl

/-- At the loss kernel's entry the weights' block is computed from the histogram block. -/
theorem V3_v14 (c : Dev nD) : V3 m ρ c main_v14 = HostStages.betaPad (V2 m ρ c main_v1) := by
  show StableHlo.after hostOps1 (W2 m ρ c) (Proc.devRef .tc main_v14) = _
  after_results
  rfl

/-- The result is computed from the loss kernel's output block. -/
theorem W5_v18 (c : Dev nD) : W5 m ρ c (Proc.devRef .tc main_v18) = HostStages.finish (V4 m ρ c main_v15) := by
  show StableHlo.after hostOps2 (W4 m ρ c) (Proc.devRef .tc main_v18) = _
  after_results
  rfl

/-- At the histogram kernel's exit its output array holds the fold of its steps. -/
theorem V2_v1 (c : Dev nD) : V2 m ρ c main_v1 = Region0.result (V1 m ρ) c :=
  (W2_arr m ρ c 2).trans (Region0.final (V1 m ρ) c)

/-- The histogram kernel leaves the logits as it found them. -/
theorem V2_arg0 (c : Dev nD) : V2 m ρ c main_arg0 = V1 m ρ c main_arg0 :=
  (W2_arr m ρ c 0).trans (((dat0 (V1 m ρ) c).arrAt_in 0 rfl _).trans (A_eq0 (V1 m ρ) c 0))

/-- The histogram kernel leaves the target column as it found it. -/
theorem V2_v0 (c : Dev nD) : V2 m ρ c main_v0 = V1 m ρ c main_v0 :=
  (W2_arr m ρ c 1).trans (((dat0 (V1 m ρ) c).arrAt_in 1 rfl _).trans (A_eq0 (V1 m ρ) c 1))

/-- The host operations between the kernels do not write the logits. -/
theorem V3_arg0 (c : Dev nD) : V3 m ρ c main_arg0 = V2 m ρ c main_arg0 := by
  show StableHlo.after hostOps1 (W2 m ρ c) (Proc.devRef .tc main_arg0) = _
  after_results

/-- The host operations between the kernels do not write the target column. -/
theorem V3_v0 (c : Dev nD) : V3 m ρ c main_v0 = V2 m ρ c main_v0 := by
  show StableHlo.after hostOps1 (W2 m ρ c) (Proc.devRef .tc main_v0) = _
  after_results

/-- At the loss kernel's exit its output array holds the fold of its steps. -/
theorem V4_v15 (c : Dev nD) : V4 m ρ c main_v15 = Region1.result (V3 m ρ) c :=
  (W4_arr m ρ c 3).trans (Region1.final (V3 m ρ) c)

end Cert.KernelIdeal.Boundary

end
-- ==== Proof.KTile0.lean ====
/-
  The histogram step, read at an entry over the extended reals: entry k < 10 of the block grows by the number
  of entries of the tile that fall in bin k.
-/
import proofs.«420279_j11596411700016_1_alg».proof.Proof.KStep
import proofs.«420279_j11596411700016_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Tile0

open Cert.KernelIdeal Cert.KernelIdeal.Gen

/-- How many entries of the tile (logits `x`, target column `t`) fall in bin `k`. -/
def tileCount (x : Vec Ideal S131072x2 .f32) (t : Vec Ideal S131072x1 .i32) (k : Fin 10) : EReal :=
  ∑ r : Fin 131072, ∑ c : Fin 2, Cert.Ghm.mask (Cert.Ghm.binOf (x (ix2 r c)) (Cert.Ghm.hot (t (ix2 r (0 : Fin 1))) c)) k

/-- The word of a comparison for equality, widened and read as a number, is 1 where the words agree and 0 elsewhere. -/
theorem eqWord_toReal (a b : BitVec 32) :
    ((((IntOp.cmpi .eq a b).setWidth 32).toInt : ℝ) : EReal) = if a = b then 1 else 0 := by
  by_cases h : a = b
  · have e : (a == b) = true := beq_iff_eq.mpr h
    have e1 : ((BitVec.ofBool true).setWidth 32).toInt = 1 := by decide
    rw [if_pos h]; simp only [IntOp.cmpi, e, e1]; simp
  · have e : (a == b) = false := beq_eq_false_iff_ne.mpr h
    have e0 : ((BitVec.ofBool false).setWidth 32).toInt = 0 := by decide
    rw [if_neg h]; simp only [IntOp.cmpi, e, e0]; simp

/-- The float mask of a bin word, read at an entry: 1 where the entry's word is the bin's word, else 0. -/
theorem maskVec_apply (v : IVec S131072x2 32) (kw : BitVec 32) (h : 1 < 32) (r : Fin 131072) (c : Fin 2) :
    (sitofp .f32 (extui 32 (cmpi .eq v (broadcast S131072x2 kw)) h) : FVec Ideal S131072x2 .f32) (ix2 r c)
      = if v (ix2 r c) = kw then 1 else 0 :=
  eqWord_toReal _ _

/-- A sum along the rows' two entries, read at a row. -/
theorem rowSum_apply (src : FVec Ideal S131072x2 .f32) (h : S131072x2.Reduces [1] S131072) (hφ : FKind.Formats .f32)
    (hacc : (0x00000000#32 : BitVec 32) = 0x00000000#32) (r : Fin 131072) :
    multiReduction .add [1] S131072 src 0x00000000#32 h hφ hacc (ix1 r) = ∑ c : Fin 2, src (ix2 r c) := by
  refine (Ideal.multiReduction_add_single src _ h hφ hacc (ix1 r)).trans ?_
  refine Finset.sum_congr rfl fun c _ => congrArg src ?_
  funext a
  match a with
  | ⟨0, _⟩ => rfl
  | ⟨1, _⟩ => rfl

/-- A sum down a column, read at its one entry. -/
theorem colSum_apply (src : FVec Ideal S131072x1 .f32) (h : S131072x1.Reduces [0] S1) (hφ : FKind.Formats .f32)
    (hacc : (0x00000000#32 : BitVec 32) = 0x00000000#32) :
    multiReduction .add [0] S1 src 0x00000000#32 h hφ hacc (ix1 (0 : Fin 1)) = ∑ r : Fin 131072, src (ix2 r (0 : Fin 1)) := by
  refine (Ideal.multiReduction_add_single src _ h hφ hacc (ix1 (0 : Fin 1))).trans ?_
  refine Finset.sum_congr rfl fun r _ => congrArg src ?_
  funext a
  match a with
  | ⟨0, _⟩ => rfl
  | ⟨1, _⟩ => rfl

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The kernel's bin word at (r, c) is the bin of the logit there against its one-hot target. -/
theorem bin_apply (x : Vec Ideal S131072x2 .f32) (t : Vec Ideal S131072x1 .i32) (r : Fin 131072) (c : Fin 2) :
    k0_pay3 (F := Ideal) x t (ix2 r c) = Cert.Ghm.binOf (x (ix2 r c)) (Cert.Ghm.hot (t (ix2 r (0 : Fin 1))) c) := by
  have hY : (sitofp .f32 (extui 32 (cmpi .eq (broadcastTo S131072x2 (shapeCast S131072x1 t shapeCasts_S131072x1_S131072x1)
        broadcasts_S131072x1_S131072x2) (iota .tc S131072x2 32 [1] iota_S131072x2_d1_w32)) natLt_1_32) : FVec Ideal S131072x2 .f32) (ix2 r c)
      = Cert.Ghm.hot (t (ix2 r (0 : Fin 1))) c := by
    refine (eqWord_toReal _ _).trans ?_
    rw [broadcastTo_a1_ab_apply, shapeCast_self, iota_single_apply]
    rfl
  unfold k0_pay3 Cert.Ghm.binOf Cert.Ghm.cBin
  rw [← hY]
  rfl

/-- Rows summed, then the column summed: the total over the tile. -/
theorem total_apply (m : FVec Ideal S131072x2 .f32) (h1 : S131072x2.Reduces [1] S131072) (h2 : S131072.ShapeCasts S131072x1)
    (h3 : S131072x1.Reduces [0] S1) (h4 : S1.ShapeCasts S1x1) (hφ hφ' : FKind.Formats .f32)
    (hacc hacc' : (0x00000000#32 : BitVec 32) = 0x00000000#32) :
    shapeCast S1x1 (multiReduction .add [0] S1 (shapeCast S131072x1 (multiReduction .add [1] S131072 m 0x00000000#32 h1 hφ hacc) h2)
        0x00000000#32 h3 hφ' hacc') h4 (ix2 (0 : Fin 1) (0 : Fin 1))
      = ∑ r : Fin 131072, ∑ c : Fin 2, m (ix2 r c) := by
  rw [shapeCast_a_1a_apply, colSum_apply]
  refine Finset.sum_congr rfl fun r _ => ?_
  rw [shapeCast_a_a1_apply, rowSum_apply]

/-- The count of one bin word over the tile, as the kernel takes it. -/
theorem count_apply (v : IVec S131072x2 32) (kw : BitVec 32) (h0 : 1 < 32) (h1 : S131072x2.Reduces [1] S131072) (h2 : S131072.ShapeCasts S131072x1)
    (h3 : S131072x1.Reduces [0] S1) (h4 : S1.ShapeCasts S1x1) (hφ hφ' : FKind.Formats .f32)
    (hacc hacc' : (0x00000000#32 : BitVec 32) = 0x00000000#32) :
    shapeCast S1x1 (multiReduction .add [0] S1 (shapeCast S131072x1 (multiReduction .add [1] S131072
          (sitofp .f32 (extui 32 (cmpi .eq v (broadcast S131072x2 kw)) h0) : FVec Ideal S131072x2 .f32) 0x00000000#32 h1 hφ hacc) h2)
        0x00000000#32 h3 hφ' hacc') h4 (ix2 (0 : Fin 1) (0 : Fin 1))
      = ∑ r : Fin 131072, ∑ c : Fin 2, if v (ix2 r c) = kw then (1 : EReal) else 0 := by
  rw [total_apply]
  exact Finset.sum_congr rfl fun r _ => Finset.sum_congr rfl fun c _ => maskVec_apply v kw h0 r c

/-- Ten one-entry pieces laid side by side: entry k is piece k. -/
theorem concat10_apply {α : Type} (p0 p1 p2 p3 p4 p5 p6 p7 p8 p9 : S1x1.Idx → α)
    (h : Shape.Concatenates [S1x1, S1x1, S1x1, S1x1, S1x1, S1x1, S1x1, S1x1, S1x1, S1x1] S1x10 1) (k : Fin 10) :
    concatenate S1x10 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h (ix2 (0 : Fin 1) k)
      = ![p0 (ix2 (0 : Fin 1) (0 : Fin 1)), p1 (ix2 (0 : Fin 1) (0 : Fin 1)), p2 (ix2 (0 : Fin 1) (0 : Fin 1)), p3 (ix2 (0 : Fin 1) (0 : Fin 1)), p4 (ix2 (0 : Fin 1) (0 : Fin 1)), p5 (ix2 (0 : Fin 1) (0 : Fin 1)), p6 (ix2 (0 : Fin 1) (0 : Fin 1)), p7 (ix2 (0 : Fin 1) (0 : Fin 1)), p8 (ix2 (0 : Fin 1) (0 : Fin 1)), p9 (ix2 (0 : Fin 1) (0 : Fin 1))] k :=
  match k with
  | ⟨0, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 0 (by simp) S1x1 p0 rfl rfl 0 rfl (ix2 (0 : Fin 1) (0 : Fin 1))
      (fun b hb => match b, hb with | ⟨0, _⟩, _ => rfl | ⟨1, _⟩, hb => absurd rfl hb) rfl
  | ⟨1, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 1 (by simp) S1x1 p1 rfl rfl 1 rfl (ix2 (0 : Fin 1) (0 : Fin 1))
      (fun b hb => match b, hb with | ⟨0, _⟩, _ => rfl | ⟨1, _⟩, hb => absurd rfl hb) rfl
  | ⟨2, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 2 (by simp) S1x1 p2 rfl rfl 2 rfl (ix2 (0 : Fin 1) (0 : Fin 1))
      (fun b hb => match b, hb with | ⟨0, _⟩, _ => rfl | ⟨1, _⟩, hb => absurd rfl hb) rfl
  | ⟨3, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 3 (by simp) S1x1 p3 rfl rfl 3 rfl (ix2 (0 : Fin 1) (0 : Fin 1))
      (fun b hb => match b, hb with | ⟨0, _⟩, _ => rfl | ⟨1, _⟩, hb => absurd rfl hb) rfl
  | ⟨4, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 4 (by simp) S1x1 p4 rfl rfl 4 rfl (ix2 (0 : Fin 1) (0 : Fin 1))
      (fun b hb => match b, hb with | ⟨0, _⟩, _ => rfl | ⟨1, _⟩, hb => absurd rfl hb) rfl
  | ⟨5, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 5 (by simp) S1x1 p5 rfl rfl 5 rfl (ix2 (0 : Fin 1) (0 : Fin 1))
      (fun b hb => match b, hb with | ⟨0, _⟩, _ => rfl | ⟨1, _⟩, hb => absurd rfl hb) rfl
  | ⟨6, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 6 (by simp) S1x1 p6 rfl rfl 6 rfl (ix2 (0 : Fin 1) (0 : Fin 1))
      (fun b hb => match b, hb with | ⟨0, _⟩, _ => rfl | ⟨1, _⟩, hb => absurd rfl hb) rfl
  | ⟨7, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 7 (by simp) S1x1 p7 rfl rfl 7 rfl (ix2 (0 : Fin 1) (0 : Fin 1))
      (fun b hb => match b, hb with | ⟨0, _⟩, _ => rfl | ⟨1, _⟩, hb => absurd rfl hb) rfl
  | ⟨8, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 8 (by simp) S1x1 p8 rfl rfl 8 rfl (ix2 (0 : Fin 1) (0 : Fin 1))
      (fun b hb => match b, hb with | ⟨0, _⟩, _ => rfl | ⟨1, _⟩, hb => absurd rfl hb) rfl
  | ⟨9, _⟩ => concatenate_apply_piece (t := S1x10) 1 [⟨S1x1, p0⟩, ⟨S1x1, p1⟩, ⟨S1x1, p2⟩, ⟨S1x1, p3⟩, ⟨S1x1, p4⟩, ⟨S1x1, p5⟩, ⟨S1x1, p6⟩, ⟨S1x1, p7⟩, ⟨S1x1, p8⟩, ⟨S1x1, p9⟩] h _ 9 (by simp) S1x1 p9 rfl rfl 9 rfl (ix2 (0 : Fin 1) (0 : Fin 1))
      (fun b hb => match b, hb with | ⟨0, _⟩, _ => rfl | ⟨1, _⟩, hb => absurd rfl hb) rfl

/-- Ten entries padded on the right: an entry below ten is the unpadded entry. -/
theorem concatPad_apply {α : Type} (p : S1x10.Idx → α) (z : S1x118.Idx → α) (h : Shape.Concatenates [S1x10, S1x118] S1x128 1) (k : Fin 10) :
    concatenate S1x128 1 [⟨S1x10, p⟩, ⟨S1x118, z⟩] h (ix2 (0 : Fin 1) (⟨k.val, by have := k.isLt; omega⟩ : Fin 128)) = p (ix2 (0 : Fin 1) k) :=
  concatenate_pair_apply_left 1 p z h _ rfl (ix2 (0 : Fin 1) k) fun b => match b with | ⟨0, _⟩ => rfl | ⟨1, _⟩ => rfl

/-- The stored block at an entry below ten: the block before plus that bin's count, the first eight counts as given,
    the last two taken here. -/
theorem pay1_apply (v17 : IVec S131072x2 32) (v25 v33 v41 v49 v57 v65 v73 v81 : FVec Ideal S1x1 .f32) (v85 : FVec Ideal S131072x2 .f32)
    (acc : Vec Ideal S1x128 .f32) (k : Fin 10) :
    k0_pay1 v17 v25 v33 v41 v49 v57 v65 v73 v81 v85 acc (ix2 (0 : Fin 1) (⟨k.val, by have := k.isLt; omega⟩ : Fin 128))
      = acc (ix2 (0 : Fin 1) (⟨k.val, by have := k.isLt; omega⟩ : Fin 128))
        + ![v25 (ix2 (0 : Fin 1) (0 : Fin 1)), v33 (ix2 (0 : Fin 1) (0 : Fin 1)), v41 (ix2 (0 : Fin 1) (0 : Fin 1)), v49 (ix2 (0 : Fin 1) (0 : Fin 1)), v57 (ix2 (0 : Fin 1) (0 : Fin 1)), v65 (ix2 (0 : Fin 1) (0 : Fin 1)), v73 (ix2 (0 : Fin 1) (0 : Fin 1)), v81 (ix2 (0 : Fin 1) (0 : Fin 1)), ∑ r : Fin 131072, ∑ c : Fin 2, v85 (ix2 r c),
            ∑ r : Fin 131072, ∑ c : Fin 2, if v17 (ix2 r c) = 9#32 then (1 : EReal) else 0] k := by
  unfold k0_pay1
  refine (addf_apply _ _ _).trans ?_
  rw [shapeCast_self, concatPad_apply, concat10_apply, total_apply, count_apply]

/-- Counting the kernel's bin words equal to the word of k counts the entries of bin k. -/
theorem maskSum_eq (x : Vec Ideal S131072x2 .f32) (t : Vec Ideal S131072x1 .i32) (kw : BitVec 32) (k : Fin 10)
    (hk : kw = BitVec.ofNat 32 k.val) :
    (∑ r : Fin 131072, ∑ c : Fin 2, if k0_pay3 (F := Ideal) x t (ix2 r c) = kw then (1 : EReal) else 0) = tileCount x t k := by
  subst hk
  unfold tileCount
  refine Finset.sum_congr rfl fun r _ => Finset.sum_congr rfl fun c _ => ?_
  rw [bin_apply]
  rfl

/-- The kernel's count of bin 0 is the tile's. -/
theorem pay4_apply (x : Vec Ideal S131072x2 .f32) (t : Vec Ideal S131072x1 .i32) :
    k0_pay4 (F := Ideal) x t (ix2 (0 : Fin 1) (0 : Fin 1)) = tileCount x t 0 := by
  unfold k0_pay4
  exact (count_apply _ _ _ _ _ _ _ _ _ _ _).trans (maskSum_eq x t 0#32 0 rfl)

/-- The kernel's count of bin 1 is the tile's. -/
theorem pay5_apply (x : Vec Ideal S131072x2 .f32) (t : Vec Ideal S131072x1 .i32) :
    k0_pay5 (F := Ideal) x t (ix2 (0 : Fin 1) (0 : Fin 1)) = tileCount x t 1 := by
  unfold k0_pay5
  exact (count_apply _ _ _ _ _ _ _ _ _ _ _).trans (maskSum_eq x t 1#32 1 rfl)

/-- The kernel's count of bin 2 is the tile's. -/
theorem pay6_apply (x : Vec Ideal S131072x2 .f32) (t : Vec Ideal S131072x1 .i32) :
    k0_pay6 (F := Ideal) x t (ix2 (0 : Fin 1) (0 : Fin 1)) = tileCount x t 2 := by
  unfold k0_pay6
  exact (count_apply _ _ _ _ _ _ _ _ _ _ _).trans (maskSum_eq x t 2#32 2 rfl)

/-- The kernel's count of bin 3 is the tile's. -/
theorem pay7_apply (x : Vec Ideal S131072x2 .f32) (t : Vec Ideal S131072x1 .i32) :
    k0_pay7 (F := Ideal) (k0_pay3 x t) (ix2 (0 : Fin 1) (0 : Fin 1)) = tileCount x t 3 := by
  unfold k0_pay7
  exact (count_apply _ _ _ _ _ _ _ _ _ _ _).trans (maskSum_eq x t 3#32 3 rfl)

/-- The kernel's count of bin 4 is the tile's. -/
theorem pay8_apply (x : Vec Ideal S131072x2 .f32) (t : Vec Ideal S131072x1 .i32) :
    k0_pay8 (F := Ideal) (k0_pay3 x t) (ix2 (0 : Fin 1) (0 : Fin 1)) = tileCount x t 4 := by
  unfold k0_pay8
  exact (count_apply _ _ _ _ _ _ _ _ _ _ _).trans (maskSum_eq x t 4#32 4 rfl)

/-- The kernel's count of bin 5 is the tile's. -/
theorem pay9_apply (x : Vec Ideal S131072x2 .f32) (t : Vec Ideal S131072x1 .i32) :
    k0_pay9 (F := Ideal) (k0_pay3 x t) (ix2 (0 : Fin 1) (0 : Fin 1)) = tileCount x t 5 := by
  unfold k0_pay9
  exact (count_apply _ _ _ _ _ _ _ _ _ _ _).trans (maskSum_eq x t 5#32 5 rfl)

/-- The kernel's count of bin 6 is the tile's. -/
theorem pay10_apply (x : Vec Ideal S131072x2 .f32) (t : Vec Ideal S131072x1 .i32) :
    k0_pay10 (F := Ideal) (k0_pay3 x t) (ix2 (0 : Fin 1) (0 : Fin 1)) = tileCount x t 6 := by
  unfold k0_pay10
  exact (count_apply _ _ _ _ _ _ _ _ _ _ _).trans (maskSum_eq x t 6#32 6 rfl)

/-- The kernel's count of bin 7 is the tile's. -/
theorem pay11_apply (x : Vec Ideal S131072x2 .f32) (t : Vec Ideal S131072x1 .i32) :
    k0_pay11 (F := Ideal) (k0_pay3 x t) (ix2 (0 : Fin 1) (0 : Fin 1)) = tileCount x t 7 := by
  unfold k0_pay11
  exact (count_apply _ _ _ _ _ _ _ _ _ _ _).trans (maskSum_eq x t 7#32 7 rfl)

/-- The float mask of bin 8, summed over the tile, is the tile's count of bin 8. -/
theorem pay12_apply (x : Vec Ideal S131072x2 .f32) (t : Vec Ideal S131072x1 .i32) :
    (∑ r : Fin 131072, ∑ c : Fin 2, k0_pay12 (F := Ideal) (k0_pay3 x t) (ix2 r c)) = tileCount x t 8 := by
  unfold k0_pay12
  refine Eq.trans ?_ (maskSum_eq x t 8#32 8 rfl)
  exact Finset.sum_congr rfl fun r _ => Finset.sum_congr rfl fun c _ => maskVec_apply _ _ _ r c

/-- A ten-entry vector of the values of f reads f. -/
theorem vec10_apply (f : Fin 10 → EReal) (k : Fin 10) : ![f 0, f 1, f 2, f 3, f 4, f 5, f 6, f 7, f 8, f 9] k = f k := by
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

/-- The zero block is zero. -/
theorem histZero_apply (j : S1x128.Idx) : Step.histZero (F := Ideal) j = 0 := by
  show Ideal.ofBits .f32 0x00000000#32 = 0
  exact Ideal.ofBits_zero_f32

/-- Entry k < 10 of the block after a step is the entry before plus the tile's count of bin k. -/
theorem hist_apply (x : Vec Ideal S131072x2 .f32) (t : Vec Ideal S131072x1 .i32) (acc : Vec Ideal S1x128 .f32) (k : Fin 10) :
    Step.hist (F := Ideal) x t acc (ix2 (0 : Fin 1) (⟨k.val, by have := k.isLt; omega⟩ : Fin 128))
      = acc (ix2 (0 : Fin 1) (⟨k.val, by have := k.isLt; omega⟩ : Fin 128)) + tileCount x t k := by
  unfold Step.hist
  rw [pay1_apply, pay4_apply, pay5_apply, pay6_apply, pay7_apply, pay8_apply, pay9_apply, pay10_apply, pay11_apply, pay12_apply,
    maskSum_eq x t 9#32 9 rfl]
  refine congrArg (fun z => acc _ + z) ?_
  generalize tileCount x t = f
  exact vec10_apply f k

end Cert.KernelIdeal.Tile0

end
-- ==== Proof.KTile1.lean ====
/-
  The loss step, read at entry 0 over the extended reals: entry 0 of the block grows by the tile's sum of
  (the weight of the entry's bin) * (the entry's cross-entropy).
-/
import proofs.«420279_j11596411700016_1_alg».proof.Proof.KStep
import proofs.«420279_j11596411700016_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Tile1

open Cert.KernelIdeal Cert.KernelIdeal.Gen

/-- The bin weights as the kernel reads them: the first ten entries of the weights' block. -/
def wTable (w : Vec Ideal S1x128 .f32) (k : Fin 10) : EReal := w (ix2 (0 : Fin 1) (⟨k.val, by have := k.isLt; omega⟩ : Fin 128))

/-- The tile's weighted cross-entropy sum under the bin weights `β`. -/
def tileLoss (x : Vec Ideal S131072x2 .f32) (t : Vec Ideal S131072x1 .i32) (β : Fin 10 → EReal) : EReal :=
  ∑ r : Fin 131072, ∑ c : Fin 2,
    Cert.Ghm.weight β (Cert.Ghm.binOf (x (ix2 r c)) (Cert.Ghm.hot (t (ix2 r (0 : Fin 1))) c))
      * Cert.Ghm.bce (x (ix2 r c)) (Cert.Ghm.hot (t (ix2 r (0 : Fin 1))) c)

/-! ## The pieces, each read at an index -/

/-- The indicator of equality: a comparison of two word vectors for equality, widened and converted, is 1 where the
    two elements are the same word and 0 elsewhere. -/
theorem indic_apply {s : Shape} (a b : IVec s 32) (h : 1 < 32) (i : s.Idx) :
    (sitofp .f32 (extui 32 (cmpi .eq a b) h) : FVec Ideal s .f32) i
      = if a i = b i then (1 : EReal) else 0 := by
  show (((((IntOp.cmpi .eq (a i) (b i)).setWidth 32).toInt : ℤ) : ℝ) : EReal) = _
  by_cases e : a i = b i
  · rw [if_pos e, e]
    have : IntOp.cmpi .eq (b i) (b i) = 1#1 := by simp [IntOp.cmpi]
    rw [this]; simp
  · rw [if_neg e]
    have : IntOp.cmpi .eq (a i) (b i) = 0#1 := by
      show BitVec.ofBool (a i == b i) = 0#1
      rw [beq_eq_false_iff_ne.mpr e]; rfl
    rw [this]; simp

/-- The one entry the kernel loads of the weights' block at column k, extracted, is the block's entry (0, k). -/
theorem wAt_extract (w : Vec Ideal S1x128 .f32) (k : Nat) (hk : k < 128)
    (h : ∀ a, (![0, k] : Fin 2 → Nat) a + S1x1.size a ≤ S1x128.size a)
    (hp : ∀ a, (![0, 0] : Fin 2 → Nat) a < S1x1.size a) :
    extractAt ![0, 0] (Step.wAt w k h) hp = w (ix2 (0 : Fin 1) (⟨k, hk⟩ : Fin 128)) := by
  show w _ = w _
  congr 1
  funext a
  match a with
  | ⟨0, _⟩ => exact Fin.ext (by simp [Rect.unit])
  | ⟨1, _⟩ => exact Fin.ext (by simp [Rect.unit])

/-- The one-hot the kernel forms: at (r, c) it is 1 if the target word of row r is the word of c, else 0. -/
theorem pay2_apply (t : Vec Ideal S131072x1 .i32) (r : Fin 131072) (c : Fin 2) :
    k1_pay2 (F := Ideal) t (ix2 r c) = Cert.Ghm.hot (t (ix2 r (0 : Fin 1))) c := by
  unfold k1_pay2
  refine (indic_apply _ _ _ _).trans ?_
  rw [iota_single_apply, shapeCast_self,
    broadcastTo_apply t _ (ix2 r c) (ix2 r (0 : Fin 1)) (fun a => match a with | ⟨0, _⟩ => rfl | ⟨1, _⟩ => rfl)]
  rfl

/-- The bin word the kernel forms at (r, c) is the bin of the logit there against its one-hot target. -/
theorem pay3_apply (x : Vec Ideal S131072x2 .f32) (t : Vec Ideal S131072x1 .i32) (r : Fin 131072) (c : Fin 2) :
    k1_pay3 (F := Ideal) x t (ix2 r c)
      = Cert.Ghm.binOf (x (ix2 r c)) (Cert.Ghm.hot (t (ix2 r (0 : Fin 1))) c) := by
  unfold k1_pay3
  show Ideal.fptosi 32 (Ideal.liftRound Int.floor
    (max (Ideal.logistic (x (ix2 r c)) - k1_pay2 (F := Ideal) t (ix2 r c))
        (-(Ideal.logistic (x (ix2 r c)) - k1_pay2 (F := Ideal) t (ix2 r c)))
      * Ideal.ofBits .f32 0x411FFF97#32)) = _
  rw [pay2_apply]
  rfl

/-! ## The two sums and the store's layout -/

/-- Over a row index r, the entry of column c of a [131072, 2] array is the entry at (r, c). -/
theorem lift_row (h : S131072x2.Reduces [1] S131072) (r : Fin 131072) (c : Fin 2) :
    h.lift (ix1 r) c = ix2 r c := by
  funext a
  match a with
  | ⟨0, _⟩ => exact Fin.ext rfl
  | ⟨1, _⟩ => exact Fin.ext rfl

/-- Over the one index of a [1] array, the entry of row r of a [131072, 1] column is the entry at (r, 0). -/
theorem lift_col (h : S131072x1.Reduces [0] S1) (r : Fin 131072) :
    h.lift (ix1 (0 : Fin 1)) r = ix2 r (0 : Fin 1) := by
  funext a
  match a with
  | ⟨0, _⟩ => exact Fin.ext rfl
  | ⟨1, _⟩ => exact Fin.ext rfl

/-- An [a] array cast to the column [a, 1] reads, at (r, 0), the operand at r. -/
theorem shapeCast_a_a1_apply {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The store's value at entry (0, 0): the block there plus the sum over all rows of the sum over both columns of the
    summand; the lane sum keeps a column, the sublane sum one entry, which is piece 0 of the padded row. -/
theorem tail_apply (p : FVec Ideal S131072x2 .f32) (acc : Vec Ideal S1x128 .f32)
    (h1 : S131072x2.Reduces [1] S131072) (h2 : S131072.ShapeCasts S131072x1)
    (h3 : S131072x1.Reduces [0] S1) (h4 : S1.ShapeCasts S1x1)
    (h5 : Shape.Concatenates [S1x1, S1x127] S1x128 1) (h6 : S1x128.ShapeCasts S1x128)
    (z : FVec Ideal S1x127 .f32) :
    addf (shapeCast S1x128 acc h6)
      (concatenate S1x128 1 [⟨S1x1, shapeCast S1x1 (multiReduction .add [0] S1
          (shapeCast S131072x1 (multiReduction .add [1] S131072 p 0x00000000#32 h1 (.inl rfl) rfl) h2)
          0x00000000#32 h3 (.inl rfl) rfl) h4⟩, ⟨S1x127, z⟩] h5) (ix2 (0 : Fin 1) (0 : Fin 128))
      = acc (ix2 (0 : Fin 1) (0 : Fin 128)) + ∑ r : Fin 131072, ∑ c : Fin 2, p (ix2 r c) := by
  rw [addf_apply, shapeCast_self]
  refine congrArg (fun e => acc (ix2 (0 : Fin 1) (0 : Fin 128)) + e) ?_
  rw [concatenate_pair_apply_left 1 _ z h5 (ix2 (0 : Fin 1) (0 : Fin 128)) rfl (ix2 (0 : Fin 1) (0 : Fin 1))
    (fun b => match b with | ⟨0, _⟩ => rfl | ⟨1, _⟩ => rfl)]
  rw [shapeCast_a_1a_apply]
  refine (Ideal.multiReduction_add_single _ _ h3 _ _ (ix1 (0 : Fin 1))).trans ?_
  refine Finset.sum_congr rfl fun (r : Fin 131072) _ => ?_
  rw [lift_col h3 r]
  refine (shapeCast_a_a1_apply _ h2 r (0 : Fin 1)).trans ?_
  refine (Ideal.multiReduction_add_single _ _ h1 _ _ (ix1 r)).trans ?_
  refine Finset.sum_congr rfl fun (c : Fin 2) _ => ?_
  rw [lift_row h1 r c]

/-! ## The weight and the cross-entropy of one entry -/

/-- The indicator vector of the bin word kw, as the kernel forms it. -/
abbrev ind (v : IVec S131072x2 32) (kw : BitVec 32) : FVec Ideal S131072x2 .f32 :=
  sitofp .f32 (extui 32 (cmpi .eq v (broadcast S131072x2 kw)) (by decide))

/-- It is 1 where the word is kw and 0 elsewhere. -/
theorem ind_apply (v : IVec S131072x2 32) (kw : BitVec 32) (i : S131072x2.Idx) :
    ind v kw i = if v i = kw then (1 : EReal) else 0 :=
  indic_apply _ _ _ _

/-- The sum over the ten bins of (indicator of the bin) * (the bin's weight), written from zero, bin by bin. -/
theorem weight_chain (β : Fin 10 → EReal) (v : BitVec 32) :
    (((((((((((0 : EReal)
      + (if v = 0#32 then (1 : EReal) else 0) * β 0) + (if v = 1#32 then (1 : EReal) else 0) * β 1)
      + (if v = 2#32 then (1 : EReal) else 0) * β 2) + (if v = 3#32 then (1 : EReal) else 0) * β 3)
      + (if v = 4#32 then (1 : EReal) else 0) * β 4) + (if v = 5#32 then (1 : EReal) else 0) * β 5)
      + (if v = 6#32 then (1 : EReal) else 0) * β 6) + (if v = 7#32 then (1 : EReal) else 0) * β 7)
      + (if v = 8#32 then (1 : EReal) else 0) * β 8) + (if v = 9#32 then (1 : EReal) else 0) * β 9)
      = Cert.Ghm.weight β v := by
  unfold Cert.Ghm.weight Cert.Ghm.mask
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_zero]
  rfl

/-- The kernel's cross-entropy at an index is the stable cross-entropy of the logit and the target there: the zero
    word is 0 and 0 - a is -a. -/
theorem bce_apply (x y : FVec Ideal S131072x2 .f32) (i : S131072x2.Idx) :
    addf (subf (maximumf x (broadcast S131072x2 (Scalar.ofBits (F := Ideal) .f32 0x00000000#32))) (mulf x y))
        (log1p (exp (subf (broadcast S131072x2 (Scalar.ofBits (F := Ideal) .f32 0x00000000#32)) (absf x)))) i
      = Cert.Ghm.bce (x i) (y i) := by
  show max (x i) (Ideal.ofBits .f32 0x00000000#32) - x i * y i
      + Ideal.log1p (Ideal.exp (Ideal.ofBits .f32 0x00000000#32 - max (x i) (-(x i)))) = _
  rw [Ideal.ofBits_zero_f32, zero_sub]
  rfl

/-- The zero block is zero. -/
theorem lossZero_apply (j : S1x128.Idx) : Step.lossZero (F := Ideal) j = 0 := by
  show Ideal.ofBits .f32 0x00000000#32 = 0
  exact Ideal.ofBits_zero_f32

/-- Entry 0 of the block after a step is the entry before plus the tile's weighted cross-entropy sum. -/
theorem lossStep_apply (x : Vec Ideal S131072x2 .f32) (t : Vec Ideal S131072x1 .i32) (w acc : Vec Ideal S1x128 .f32) :
    Step.lossStep (F := Ideal) x t w acc (ix2 (0 : Fin 1) (0 : Fin 128))
      = acc (ix2 (0 : Fin 1) (0 : Fin 128)) + tileLoss x t (wTable w) := by
  unfold Step.lossStep k1_pay10
  refine (tail_apply _ acc _ _ _ _ _ _ _).trans ?_
  refine congrArg (fun e => acc (ix2 (0 : Fin 1) (0 : Fin 128)) + e) ?_
  unfold tileLoss
  refine Finset.sum_congr rfl fun (r : Fin 131072) _ => Finset.sum_congr rfl fun (c : Fin 2) _ => ?_
  refine (mulf_apply _ _ _).trans ?_
  refine congrArg₂ (fun a b : EReal => a * b) ?_ ?_
  · -- the weight: the ten indicators times the ten loaded entries, from zero
    show (((((((((((Ideal.ofBits .f32 0x00000000#32 : EReal)
        + ind (k1_pay3 (F := Ideal) x t) 0#32 (ix2 r c) * extractAt ![0, 0] (Step.wAt w 0 _) _)
        + ind (k1_pay3 (F := Ideal) x t) 1#32 (ix2 r c) * extractAt ![0, 0] (Step.wAt w 1 _) _)
        + ind (k1_pay3 (F := Ideal) x t) 2#32 (ix2 r c) * extractAt ![0, 0] (Step.wAt w 2 _) _)
        + ind (k1_pay3 (F := Ideal) x t) 3#32 (ix2 r c) * extractAt ![0, 0] (Step.wAt w 3 _) _)
        + ind (k1_pay3 (F := Ideal) x t) 4#32 (ix2 r c) * extractAt ![0, 0] (Step.wAt w 4 _) _)
        + ind (k1_pay3 (F := Ideal) x t) 5#32 (ix2 r c) * extractAt ![0, 0] (Step.wAt w 5 _) _)
        + ind (k1_pay3 (F := Ideal) x t) 6#32 (ix2 r c) * extractAt ![0, 0] (Step.wAt w 6 _) _)
        + ind (k1_pay3 (F := Ideal) x t) 7#32 (ix2 r c) * extractAt ![0, 0] (Step.wAt w 7 _) _)
        + ind (k1_pay3 (F := Ideal) x t) 8#32 (ix2 r c) * extractAt ![0, 0] (Step.wAt w 8 _) _)
        + ind (k1_pay3 (F := Ideal) x t) 9#32 (ix2 r c) * extractAt ![0, 0] (Step.wAt w 9 _) _) = _
    rw [Ideal.ofBits_zero_f32, wAt_extract w 0 (by decide), wAt_extract w 1 (by decide), wAt_extract w 2 (by decide),
      wAt_extract w 3 (by decide), wAt_extract w 4 (by decide), wAt_extract w 5 (by decide),
      wAt_extract w 6 (by decide), wAt_extract w 7 (by decide), wAt_extract w 8 (by decide),
      wAt_extract w 9 (by decide)]
    simp only [ind_apply]
    rw [pay3_apply]
    exact weight_chain (wTable w) _
  · -- the cross-entropy
    refine (bce_apply x (k1_pay2 (F := Ideal) t) (ix2 r c)).trans ?_
    rw [pay2_apply]

end Cert.KernelIdeal.Tile1

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.KValue.lean ====
/-
  What the kernel program computes: the loss of Spec.lean, for any logits and targets.

  The histogram kernel's block after the last grid point holds, in entry k < 10, the sum over the 64 tiles of the
  tile's count of bin k; a tile's rows are 131072 consecutive rows of the arrays, so the 64 tile sums are the sum
  over all 8388608 rows: the histogram of Spec.lean. The host operations between the kernels turn it into the bin
  weights; the loss kernel's block after the last point holds, in entry 0, the sum over the tiles of the tile's
  weighted cross-entropy sums, again the sum over all rows; the last host operations divide entry 0 by N.
  Sums of extended reals regroup freely: nothing here needs the logits finite.
-/
import proofs.«420279_j11596411700016_1_alg».proof.Proof.KBlocks
import proofs.«420279_j11596411700016_1_alg».proof.Proof.KBoundary
import proofs.«420279_j11596411700016_1_alg».proof.Proof.KTile0
import proofs.«420279_j11596411700016_1_alg».proof.Proof.KTile1
import proofs.«420279_j11596411700016_1_alg».proof.Proof.KHost
import proofs.«420279_j11596411700016_1_alg».proof.Proof.LibTileSum
import proofs.«420279_j11596411700016_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Ghm

/-! ## Rows by number -/

/-- Row e of the arrays, for any natural e (the remainder by the number of rows: the identity below it). -/
def rowOf (e : ℕ) : Fin 8388608 := ⟨e % 8388608, Nat.mod_lt _ (by norm_num)⟩

theorem rowOf_val (b : Fin 8388608) : rowOf b.val = b := Fin.ext (Nat.mod_eq_of_lt b.isLt)

theorem rowOf_row (n : ℕ) (hn : n < 64) (r : Fin 131072) : Blocks.row n hn r = rowOf (131072 * n + r.val) :=
  Fin.ext (by show 131072 * n + r.val = (131072 * n + r.val) % 8388608; have := r.isLt; rw [Nat.mod_eq_of_lt (by omega)])

/-- A sum over 64 tiles of 131072 rows each is the sum over all 8388608 rows. -/
theorem sum_tiles {M : Type*} [AddCommMonoid M] (G : Fin 8388608 → M) :
    ∑ s ∈ Finset.range 64, ∑ r : Fin 131072, G (rowOf (131072 * s + r.val)) = ∑ b : Fin 8388608, G b := by
  rw [Cert.Lib.sum_fin_tiles 131072 64 (fun e => G (rowOf e))]
  show ∑ e : Fin 8388608, G (rowOf e.val) = _
  exact Finset.sum_congr rfl fun b _ => by rw [rowOf_val]

/-! ## The histogram kernel -/

section Region0

variable (V : (c : Dev nD) → (b : Ref sig .tc) → Buf (Elt Ideal) ((c : Thread nD τ).loc b))

/-- A tile's count of bin k, over the arrays the tile's blocks are cut from. -/
theorem tileCount_blk (c : Dev nD) (Xc : SX.Idx → EReal) (Tc : ST.Idx → BitVec 32)
    (hX : (V c main_arg0 : S8388608x2.Idx → EReal) = Xc)
    (hT : (V c main_v0 : S8388608x1.Idx → BitVec 32) = HostStages.targetCol (F := Ideal) Tc)
    (k : Fin 10) (n : ℕ) (h : n < cfg0.N) :
    Tile0.tileCount (Region0.xblk V c n h) (Region0.tblk V c n h) k
      = ∑ r : Fin 131072, ∑ cc : Fin 2, mask (binAt Xc Tc (rowOf (131072 * n + r.val)) cc) k := by
  unfold Tile0.tileCount
  refine Finset.sum_congr rfl fun r _ => Finset.sum_congr rfl fun cc _ => ?_
  rw [Blocks.xblk0_apply V c n h r cc, Blocks.tblk0_apply V c n h r, hX, hT, HostStages.targetCol_apply, rowOf_row]
  rfl

/-- Entry k of the block after point n: the counts of bin k of the tiles 0 … n. -/
theorem acc0_apply (c : Dev nD) (Xc : SX.Idx → EReal) (Tc : ST.Idx → BitVec 32)
    (hX : (V c main_arg0 : S8388608x2.Idx → EReal) = Xc)
    (hT : (V c main_v0 : S8388608x1.Idx → BitVec 32) = HostStages.targetCol (F := Ideal) Tc) (k : Fin 10) :
    ∀ (n : ℕ) (h : n < cfg0.N),
      Region0.acc0 V c n h (ix2 (0 : Fin 1) (⟨k.val, by have := k.isLt; omega⟩ : Fin 128))
        = ∑ s ∈ Finset.range (n + 1), ∑ r : Fin 131072, ∑ cc : Fin 2, mask (binAt Xc Tc (rowOf (131072 * s + r.val)) cc) k
  | 0, h => by
    show Step.hist (F := Ideal) (Region0.xblk V c 0 h) (Region0.tblk V c 0 h) (Step.histZero (F := Ideal)) _ = _
    rw [Tile0.hist_apply, Tile0.histZero_apply, zero_add, tileCount_blk V c Xc Tc hX hT k 0 h, Finset.sum_range_one]
  | n + 1, h => by
    show Step.hist (F := Ideal) (Region0.xblk V c (n + 1) h) (Region0.tblk V c (n + 1) h) (Region0.acc0 V c n (Nat.lt_of_succ_lt h)) _ = _
    rw [Tile0.hist_apply, acc0_apply c Xc Tc hX hT k n (Nat.lt_of_succ_lt h), tileCount_blk V c Xc Tc hX hT k (n + 1) h,
      Finset.sum_range_succ (fun s => ∑ r : Fin 131072, ∑ cc : Fin 2, mask (binAt Xc Tc (rowOf (131072 * s + r.val)) cc) k) (n + 1)]

/-- Entry k of the histogram kernel's output array is the histogram's bin k. -/
theorem result0_apply (c : Dev nD) (Xc : SX.Idx → EReal) (Tc : ST.Idx → BitVec 32)
    (hX : (V c main_arg0 : S8388608x2.Idx → EReal) = Xc)
    (hT : (V c main_v0 : S8388608x1.Idx → BitVec 32) = HostStages.targetCol (F := Ideal) Tc) (k : Fin 10) :
    (Region0.result V c : S1x128.Idx → EReal) (ix2 (0 : Fin 1) (⟨k.val, by have := k.isLt; omega⟩ : Fin 128)) = count Xc Tc k := by
  show Region0.acc0 V c 63 _ _ = _
  rw [acc0_apply V c Xc Tc hX hT k 63 _]
  exact sum_tiles fun b => ∑ cc : Fin 2, mask (binAt Xc Tc b cc) k

end Region0

/-! ## The loss kernel -/

section Region1

variable (V : (c : Dev nD) → (b : Ref sig .tc) → Buf (Elt Ideal) ((c : Thread nD τ).loc b))

/-- A tile's weighted cross-entropy sum, over the arrays the tile's blocks are cut from. -/
theorem tileLoss_blk (c : Dev nD) (Xc : SX.Idx → EReal) (Tc : ST.Idx → BitVec 32) (β : Fin 10 → EReal)
    (hX : (V c main_arg0 : S8388608x2.Idx → EReal) = Xc)
    (hT : (V c main_v0 : S8388608x1.Idx → BitVec 32) = HostStages.targetCol (F := Ideal) Tc)
    (hW : ∀ k : Fin 10, (V c main_v14 : S1x128.Idx → EReal) (ix2 (0 : Fin 1) (⟨k.val, by have := k.isLt; omega⟩ : Fin 128)) = β k)
    (n : ℕ) (h : n < cfg1.N) :
    Tile1.tileLoss (Region1.xblk V c n h) (Region1.tblk V c n h) (Tile1.wTable (Region1.wblk V c n h))
      = ∑ r : Fin 131072, ∑ cc : Fin 2, term Xc Tc β (rowOf (131072 * n + r.val)) cc := by
  have hβ : Tile1.wTable (Region1.wblk V c n h) = β := funext fun k => by
    unfold Tile1.wTable
    rw [Blocks.wblk1_apply V c n h]
    exact hW k
  rw [hβ]
  unfold Tile1.tileLoss
  refine Finset.sum_congr rfl fun r _ => Finset.sum_congr rfl fun cc _ => ?_
  rw [Blocks.xblk1_apply V c n h r cc, Blocks.tblk1_apply V c n h r, hX, hT, HostStages.targetCol_apply, rowOf_row]
  rfl

/-- Entry 0 of the block after point n: the weighted cross-entropy sums of the tiles 0 … n. -/
theorem acc1_apply (c : Dev nD) (Xc : SX.Idx → EReal) (Tc : ST.Idx → BitVec 32) (β : Fin 10 → EReal)
    (hX : (V c main_arg0 : S8388608x2.Idx → EReal) = Xc)
    (hT : (V c main_v0 : S8388608x1.Idx → BitVec 32) = HostStages.targetCol (F := Ideal) Tc)
    (hW : ∀ k : Fin 10, (V c main_v14 : S1x128.Idx → EReal) (ix2 (0 : Fin 1) (⟨k.val, by have := k.isLt; omega⟩ : Fin 128)) = β k) :
    ∀ (n : ℕ) (h : n < cfg1.N),
      Region1.acc1 V c n h (ix2 (0 : Fin 1) (0 : Fin 128))
        = ∑ s ∈ Finset.range (n + 1), ∑ r : Fin 131072, ∑ cc : Fin 2, term Xc Tc β (rowOf (131072 * s + r.val)) cc
  | 0, h => by
    show Step.lossStep (F := Ideal) (Region1.xblk V c 0 h) (Region1.tblk V c 0 h) (Region1.wblk V c 0 h) (Step.lossZero (F := Ideal)) _ = _
    rw [Tile1.lossStep_apply, Tile1.lossZero_apply, zero_add, tileLoss_blk V c Xc Tc β hX hT hW 0 h, Finset.sum_range_one]
  | n + 1, h => by
    show Step.lossStep (F := Ideal) (Region1.xblk V c (n + 1) h) (Region1.tblk V c (n + 1) h) (Region1.wblk V c (n + 1) h)
      (Region1.acc1 V c n (Nat.lt_of_succ_lt h)) _ = _
    rw [Tile1.lossStep_apply, acc1_apply c Xc Tc β hX hT hW n (Nat.lt_of_succ_lt h), tileLoss_blk V c Xc Tc β hX hT hW (n + 1) h,
      Finset.sum_range_succ (fun s => ∑ r : Fin 131072, ∑ cc : Fin 2, term Xc Tc β (rowOf (131072 * s + r.val)) cc) (n + 1)]

/-- Entry 0 of the loss kernel's output array is the sum of all entries' weighted cross-entropies. -/
theorem result1_apply (c : Dev nD) (Xc : SX.Idx → EReal) (Tc : ST.Idx → BitVec 32) (β : Fin 10 → EReal)
    (hX : (V c main_arg0 : S8388608x2.Idx → EReal) = Xc)
    (hT : (V c main_v0 : S8388608x1.Idx → BitVec 32) = HostStages.targetCol (F := Ideal) Tc)
    (hW : ∀ k : Fin 10, (V c main_v14 : S1x128.Idx → EReal) (ix2 (0 : Fin 1) (⟨k.val, by have := k.isLt; omega⟩ : Fin 128)) = β k) :
    (Region1.result V c : S1x128.Idx → EReal) (ix2 (0 : Fin 1) (0 : Fin 128)) = ∑ b : Fin 8388608, ∑ cc : Fin 2, term Xc Tc β b cc := by
  show Region1.acc1 V c 63 _ _ = _
  rw [acc1_apply V c Xc Tc β hX hT hW 63 _]
  exact sum_tiles fun b => ∑ cc : Fin 2, term Xc Tc β b cc

end Region1

/-! ## The program -/

variable (m : (ℓ : Loc nD τ sig) → Buf (Elt Ideal) ℓ) (ρ : Dev nD → PrngReg)

/-- The result buffer's contents at the end of the run: the loss of the two argument arrays. -/
theorem result_eq (c : Dev nD) :
    (W5 m ρ c (Proc.devRef .tc main_v18) : S_.Idx → EReal)
      = fun _ => loss (m ((c : Thread nD τ).loc main_arg0)) (m ((c : Thread nD τ).loc main_arg1)) := by
  have hX1 : (V1 m ρ c main_arg0 : S8388608x2.Idx → EReal) = m ((c : Thread nD τ).loc main_arg0) := Boundary.V1_arg0 m ρ c
  have hT1 : (V1 m ρ c main_v0 : S8388608x1.Idx → BitVec 32) = HostStages.targetCol (F := Ideal) (m ((c : Thread nD τ).loc main_arg1)) :=
    Boundary.V1_v0 m ρ c
  have hX3 : (V3 m ρ c main_arg0 : S8388608x2.Idx → EReal) = m ((c : Thread nD τ).loc main_arg0) :=
    (Boundary.V3_arg0 m ρ c).trans ((Boundary.V2_arg0 m ρ c).trans hX1)
  have hT3 : (V3 m ρ c main_v0 : S8388608x1.Idx → BitVec 32) = HostStages.targetCol (F := Ideal) (m ((c : Thread nD τ).loc main_arg1)) :=
    (Boundary.V3_v0 m ρ c).trans ((Boundary.V2_v0 m ρ c).trans hT1)
  have hW3 : ∀ k : Fin 10, (V3 m ρ c main_v14 : S1x128.Idx → EReal) (ix2 (0 : Fin 1) (⟨k.val, by have := k.isLt; omega⟩ : Fin 128))
      = beta (count (m ((c : Thread nD τ).loc main_arg0)) (m ((c : Thread nD τ).loc main_arg1))) k := fun k => by
    rw [Boundary.V3_v14 m ρ c, HostStages.betaPad_apply, Boundary.V2_v1 m ρ c]
    exact congrArg (fun cnt : Fin 10 → EReal => beta cnt k) (funext fun k' => result0_apply (V1 m ρ) c _ _ hX1 hT1 k')
  funext i
  rw [Boundary.W5_v18 m ρ c, HostStages.finish_apply, Boundary.V4_v15 m ρ c,
    result1_apply (V3 m ρ) c _ _ _ hX3 hT3 hW3]
  rfl

end Cert.KernelIdeal.Value

end
-- ==== Proof.SpecRange.lean ====
/-
  The bin of a finite logit is one of the ten bins.
-/
import proofs.«420279_j11596411700016_1_alg».proof.Proof.Spec
import Mathlib.Analysis.SpecialFunctions.Exp
import Mathlib.Data.EReal.Basic
import Mathlib.Data.EReal.Operations
import Mathlib.Algebra.Order.Floor.Ring

noncomputable section

namespace Cert.Ghm

open Idealize.ShloMosaic

/-- A one-hot target is 0 or 1. -/
theorem hot_cases (t : BitVec 32) (c : Fin 2) : hot t c = 0 ∨ hot t c = 1 := by
  unfold hot; by_cases h : t = BitVec.ofNat 32 c.val
  · right; rw [if_pos h]
  · left; rw [if_neg h]

/-- The bin scale's word has sign 0, exponent 130 and fraction 2097047: it denotes
    (2^23 + 2097047) * 2^(130 - 127 - 23) = 10485655 / 1048576, a real just under 10. -/
theorem cBin_eq : cBin = ((10485655 / 1048576 : ℝ) : EReal) := by
  unfold cBin
  simp [Ideal.ofBits, Ideal.ieee, -EReal.coe_mul]; norm_num

/-- The larger of an extended real that is a real number and its negative is the real's absolute value. -/
theorem max_coe_neg (a : ℝ) : max (a : EReal) (-(a : EReal)) = ((|a| : ℝ) : EReal) := by
  rw [← EReal.coe_neg, abs_eq_max_neg]
  exact (EReal.coe_strictMono.monotone.map_max).symm

/-- A 32-bit signed conversion of an integer-valued real in [0, 2^31) is that integer's word. -/
theorem fptosi_coe_nat (m : ℕ) (hm : m < 10) :
    Ideal.fptosi 32 (((m : ℤ) : ℝ) : EReal) = BitVec.ofNat 32 m := by
  have h0 : (0 : ℝ) ≤ ((m : ℤ) : ℝ) := by exact_mod_cast Nat.zero_le m
  rw [Ideal.fptosi, Ideal.toIntClamped_coe, if_pos h0, Int.floor_intCast]
  have hclamp : max (-((2 ^ (32 - 1) : ℕ) : ℤ)) (min (((2 ^ (32 - 1) : ℕ) : ℤ) - 1) (m : ℤ)) = (m : ℤ) := by
    norm_num
    omega
  rw [hclamp, BitVec.ofInt_natCast]

/-- For a finite logit and a target of 0 or 1 the gradient magnitude lies in [0, 1], so its bin is one of 0 … 9. -/
theorem binOf_range (r : ℝ) (y : EReal) (hy : y = 0 ∨ y = 1) :
    ∃ k : Fin 10, binOf (r : EReal) y = BitVec.ofNat 32 k.val := by
  -- the sigmoid of a real lies strictly between 0 and 1
  have hpos : 0 < Real.exp (-r) := Real.exp_pos _
  have hs0 : 0 < (1 + Real.exp (-r))⁻¹ := by positivity
  have hs1 : (1 + Real.exp (-r))⁻¹ < 1 := inv_lt_one_of_one_lt₀ (by linarith)
  -- the gradient magnitude is a real in [0, 1]
  obtain ⟨g, hg, hg0, hg1⟩ : ∃ g : ℝ,
      max (Ideal.logistic (r : EReal) - y) (-(Ideal.logistic (r : EReal) - y)) = (g : EReal) ∧ 0 ≤ g ∧ g ≤ 1 := by
    rcases hy with rfl | rfl
    · refine ⟨|(1 + Real.exp (-r))⁻¹ - 0|, ?_, abs_nonneg _, ?_⟩
      · rw [Ideal.logistic_coe, ← EReal.coe_zero, ← EReal.coe_sub, max_coe_neg]
      · rw [abs_le]; constructor <;> linarith
    · refine ⟨|(1 + Real.exp (-r))⁻¹ - 1|, ?_, abs_nonneg _, ?_⟩
      · rw [Ideal.logistic_coe, ← EReal.coe_one, ← EReal.coe_sub, max_coe_neg]
      · rw [abs_le]; constructor <;> linarith
  -- scaled by a constant in [0, 10) it lies in [0, 10), so its floor is one of 0 … 9
  have hprod0 : 0 ≤ g * (10485655 / 1048576 : ℝ) := by positivity
  have hprod1 : g * (10485655 / 1048576 : ℝ) < 10 := by nlinarith
  have hn0 : 0 ≤ ⌊g * (10485655 / 1048576 : ℝ)⌋ := Int.floor_nonneg.mpr hprod0
  have hn1 : ⌊g * (10485655 / 1048576 : ℝ)⌋ < 10 := Int.floor_lt.mpr (by exact_mod_cast hprod1)
  obtain ⟨m, hm⟩ := Int.eq_ofNat_of_zero_le hn0
  have hm10 : m < 10 := by omega
  refine ⟨⟨m, hm10⟩, ?_⟩
  unfold binOf
  rw [hg, cBin_eq, ← EReal.coe_mul, Ideal.liftRound_coe, hm]
  exact fptosi_coe_nat m hm10

end Cert.Ghm

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibCount.lean ====
/-
  The count a sum-reduction of a widened mask computes when it runs over ALL the axes of the mask.

  A program counts the entries of an array that satisfy a condition by comparing (an array of one-bit words, 1 where
  the condition holds), widening each bit to a 32-bit word (0 or 1), and summing the words over every axis into a
  result that has one index. The sum is taken in 32-bit words, so it could wrap; with fewer than 2³² entries (2³¹ for
  the signed reading) it does not, and the result is the NUMBER of set bits, whatever the shape and the rank:

  * `drop_eq_of_size_one`: into a result whose every axis has size one, every operand index reduces into the one
    result index;
  * `toNat_reduce_count_all`: the reduced word, read unsigned, is the number of set bits of the mask;
  * `toInt_reduce_count_all`: read signed it is the same number (fewer than 2³¹ entries);
  * `sitofp_reduce_count_all`: converted to a float at the ideal values (where the conversion is exact) it is that
    number as a real.

  Nothing here names a program; the shapes, the axes and the mask are arbitrary.
-/
import Idealize.ShloMosaic.Lib.StableHlo.Predicate
import Idealize.ShloMosaic.PureOps.Reduce
import Idealize.ShloMosaic.PureOps.Ideal

noncomputable section

namespace LibCount

open Idealize.ShloMosaic Idealize.ShloMosaic.StableHlo.Predicate

variable {s t u : Shape} {axes : List (Fin s.rank)}

/-- Into a result whose every axis has size one, every operand index reduces into the one result index. -/
theorem drop_eq_of_size_one (h : s.ReducesTo axes t) (ht : ∀ b, t.size b = 1) (i : s.Idx) (j : t.Idx) :
    h.drop i = j :=
  funext fun b => Fin.ext (by
    have := (h.drop i b).isLt; have := (j b).isLt; have := ht b; omega)

/-- OVER ALL THE AXES: summing the widened bits of a mask of any shape into a result of one index gives the number of
    indices whose bit is set (fewer than 2³² entries, so the 32-bit sum does not wrap). -/
theorem toNat_reduce_count_all (hs : s.numel < 2 ^ 32) (mask : IVec s 1) (hw : 1 < 32)
    (h : s.ReducesTo axes t) (ht : ∀ b, t.size b = 1) (hu : 0 < u.numel) (j : t.Idx) :
    (Host.reduce IntOp.addi (extui 32 mask hw) (constantI u 32 0#32) h hu j).toNat
      = (Finset.univ.filter (fun i : s.Idx => mask i = 1#1)).card := by
  classical
  rw [Host.reduce_eq_fold]
  have hall : (Finset.univ.filter fun i : s.Idx => h.drop i = j) = Finset.univ :=
    Finset.filter_true_of_mem fun i _ => drop_eq_of_size_one h ht i j
  rw [hall]
  have hsum : ∑ i : s.Idx, (extui 32 mask hw i).toNat = (Finset.univ.filter (fun i : s.Idx => mask i = 1#1)).card := by
    rw [Finset.card_filter]
    exact Finset.sum_congr rfl fun i _ => toNat_setWidth_bit (mask i)
  show (Finset.fold IntOp.addi 0#32 (extui 32 mask hw) Finset.univ).toNat = _
  rw [toNat_fold_addi _ _ (by
    rw [hsum]
    exact lt_of_le_of_lt (Finset.card_le_univ _) (by rw [Shape.card_idx]; exact hs)), hsum]

/-- The same count read SIGNED (fewer than 2³¹ entries, so the sign bit stays clear). -/
theorem toInt_reduce_count_all (hs : s.numel < 2 ^ 31) (mask : IVec s 1) (hw : 1 < 32)
    (h : s.ReducesTo axes t) (ht : ∀ b, t.size b = 1) (hu : 0 < u.numel) (j : t.Idx) :
    (Host.reduce IntOp.addi (extui 32 mask hw) (constantI u 32 0#32) h hu j).toInt
      = ((Finset.univ.filter (fun i : s.Idx => mask i = 1#1)).card : Int) := by
  have hn := toNat_reduce_count_all (u := u) (by omega) mask hw h ht hu j
  have hc : (Finset.univ.filter (fun i : s.Idx => mask i = 1#1)).card ≤ s.numel := by
    rw [← Shape.card_idx]; exact Finset.card_le_univ _
  rw [toInt_eq_toNat_of_lt (by rw [hn]; omega), hn]

/-- The count converted to a float, at the ideal values: the number of set bits as a real. -/
theorem sitofp_reduce_count_all (hs : s.numel < 2 ^ 31) (mask : IVec s 1) (hw : 1 < 32)
    (h : s.ReducesTo axes t) (ht : ∀ b, t.size b = 1) (hu : 0 < u.numel) (j : t.Idx) (φ : FTy) :
    FloatOps.sitofp (F := Ideal) φ (Host.reduce IntOp.addi (extui 32 mask hw) (constantI u 32 0#32) h hu j)
      = ((((Finset.univ.filter (fun i : s.Idx => mask i = 1#1)).card : ℕ) : ℝ) : EReal) := by
  show ((((Host.reduce IntOp.addi (extui 32 mask hw) (constantI u 32 0#32) h hu j).toInt : ℤ) : ℝ) : EReal) = _
  rw [toInt_reduce_count_all hs mask hw h ht hu j, Int.cast_natCast]

end LibCount

end
-- ==== Proof.RefValue.lean ====
/-
  What the reference program computes is the loss of Spec.lean, for finite logits.
-/
import proofs.«420279_j11596411700016_1_alg».proof.Proof.RefReadAt
import proofs.«420279_j11596411700016_1_alg».proof.Proof.SpecRange
import proofs.«420279_j11596411700016_1_alg».proof.Proof.LibScatterAdd
import proofs.«420279_j11596411700016_1_alg».proof.Proof.LibCount
import Idealize.ShloMosaic.Lib.ValueIdx
import Idealize.ShloMosaic.Lib.ValueIdxRank1
import Idealize.ShloMosaic.PureOps.Ideal.Laws

noncomputable section

namespace Cert.ReferenceIdeal.RefValue

open Cert.ReferenceIdeal Cert.ReferenceIdeal.Read Idealize.ShloMosaic Idealize.ShloMosaic.TcCoe Idealize.SL.Sem
open Idealize.ShloMosaic.ValueIdx
open scoped BigOperators

/-! ## Words and constants -/

/-- The single-precision word 0x3F800000 is 1. -/
theorem one_f32 : Ideal.ofBits .f32 0x3F800000#32 = 1 := by
  simp [Ideal.ofBits, Ideal.ieee, -EReal.coe_mul]; norm_num

/-- A bin word k < 10 reads k as a signed integer. -/
theorem toInt_bin (k : Fin 10) : (BitVec.ofNat 32 k.val).toInt = (k.val : Int) := by
  fin_cases k <;> rfl

/-- Replacing a negative index i by i + 10 does nothing to a bin word k < 10. -/
theorem wrap_id (v : BitVec 32) (k : Fin 10) (h : v = BitVec.ofNat 32 k.val) :
    Scalar.select (IntOp.cmpi .slt v 0#32) (IntOp.addi v 10#32) v = v := by
  subst h; fin_cases k <;> rfl

/-- Two bin words are equal exactly when they read the same signed integer. -/
theorem toInt_eq_iff (v : BitVec 32) (k' k : Fin 10) (h : v = BitVec.ofNat 32 k'.val) :
    v.toInt = (k.val : Int) ↔ v = BitVec.ofNat 32 k.val := by
  subst h
  constructor
  · intro e
    rw [toInt_bin] at e
    have : k'.val = k.val := by omega
    rw [this]
  · intro e
    rw [e, toInt_bin]

/-- The inclusion of the reals in the extended reals carries a finite sum to the sum of the inclusions. -/
theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The 2·B flat positions e = 2 b + c, summed row by row. -/
theorem sum_flat {M : Type} [AddCommMonoid M] (f : Fin 16777216 → M) :
    ∑ e, f e = ∑ b : Fin 8388608, ∑ c : Fin 2,
      f ⟨2 * b.val + c.val, by have := b.isLt; have := c.isLt; omega⟩ := by
  show ∑ e : Fin (8388608 * 2), f e = _
  rw [← Equiv.sum_comp (finProdFinEquiv (m := 8388608) (n := 2)), Fintype.sum_prod_type]
  refine Finset.sum_congr rfl fun b _ => Finset.sum_congr rfl fun c _ => ?_
  congr 1
  apply Fin.ext
  show c.val + 2 * b.val = 2 * b.val + c.val
  omega

/-- The host's accumulating scatter at the exact values. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The printed scatter's dimension numbers are those of a scatter into a vector. -/
theorem scatter_dims_eq : scatter_S10_S16777216x1_S16777216_n_0_0_1
    = Cert.Lib.vecScatterDims 10 16777216 Cert.ReferenceIdeal.Gen.scatter_S10_S16777216x1_S16777216_n_0_0_1_wf := rfl

/-- The printed gather's dimension numbers are those of reading a vector at an array of positions. -/
theorem gather_dims_eq : gather_S10_S8388608x2x1_S8388608x2_n_0_n_n_0_2_1
    = takeDims 10 8388608 2 Cert.ReferenceIdeal.Gen.gather_S10_S8388608x2x1_S8388608x2_n_0_n_n_0_2_1_wf := rfl

/-! ## The stages, over any two argument arrays -/

section Stages

variable (X : (⟨S8388608x2, .f32⟩ : BufTy).Contents (Elt Ideal)) (T : (⟨S8388608, .i32⟩ : BufTy).Contents (Elt Ideal))

/-- The one-hot target at (b, c). -/
theorem hot_at (b : Fin 8388608) (c : Fin 2) :
    val_main_v0 (F := Ideal) T (ix2 b c) = Cert.Ghm.hot (T (ix1 b)) c := by
  rw [val_main_v0_apply, val_main_call0_v4_apply, val_main_call0_v2_apply, val_main_call0_v0_apply,
    val_main_call0_v3_apply, val_main_call0_v1_apply]
  have e1 : idx_main_call0_v0 (idx_main_call0_v2 (ix2 b c)) = ix1 b := by
    funext a; match a with | ⟨0, _⟩ => rfl
  rw [e1]
  show ((((IntOp.cmpi .eq (T (ix1 b)) (BitVec.ofNat 32 c.val)).toNat : ℕ) : ℝ) : EReal) = _
  unfold Cert.Ghm.hot
  by_cases h : T (ix1 b) = BitVec.ofNat 32 c.val
  · rw [if_pos h, h]; simp [IntOp.cmpi]
  · rw [if_neg h]; simp [IntOp.cmpi, h]

/-- The bin word at an index is the bin of the logit there against the one-hot target there. -/
theorem bin_at (i : S8388608x2.Idx) :
    val_main_v12 (F := Ideal) X T i = Cert.Ghm.binOf (X i) (val_main_v0 (F := Ideal) T i) := by
  rw [val_main_v12_apply, val_main_v11_apply, val_main_v10_apply, val_main_v8_apply, val_main_v7_apply,
    val_main_v6_apply, val_main_v5_apply, val_main_cst_0_apply, val_main_v4_apply, val_main_v3_apply,
    val_main_cst_apply, val_main_v2_apply, val_main_v1_apply, val_main_v9_apply, val_main_cst_1_apply]
  unfold Cert.Ghm.binOf Cert.Ghm.cBin Ideal.logistic
  rw [← one_f32]
  rfl

/-- The bin word at (b, c) is the bin of entry (b, c). -/
theorem v12_at (b : Fin 8388608) (c : Fin 2) :
    val_main_v12 (F := Ideal) X T (ix2 b c) = Cert.Ghm.binAt X T b c := by
  rw [bin_at, hot_at]; rfl

end Stages

section Stages2

variable (X : (⟨S8388608x2, .f32⟩ : BufTy).Contents (Elt Ideal)) (T : (⟨S8388608, .i32⟩ : BufTy).Contents (Elt Ideal))
variable (hfin : ∀ i, ∃ r : ℝ, X i = (r : EReal))
include hfin

/-- For finite logits every entry's bin is one of the ten bins. -/
theorem bin_range (b : Fin 8388608) (c : Fin 2) :
    ∃ k : Fin 10, Cert.Ghm.binAt X T b c = BitVec.ofNat 32 k.val := by
  obtain ⟨r, hr⟩ := hfin (ix2 b c)
  unfold Cert.Ghm.binAt
  rw [hr]
  exact Cert.Ghm.binOf_range r _ (Cert.Ghm.hot_cases _ _)

/-- The scatter's position word at flat position e = 2 b + c is the bin of entry (b, c): the reshape reads (b, c)
    there, and the replacement of negative indices does nothing to a bin. -/
theorem v20_at (b : Fin 8388608) (c : Fin 2) :
    val_main_v20 (F := Ideal) X T
        (ix2 (⟨2 * b.val + c.val, by have := b.isLt; have := c.isLt; omega⟩ : Fin 16777216) (0 : Fin 1))
      = Cert.Ghm.binAt X T b c := by
  rw [val_main_v20_apply, val_main_v19_apply, val_main_v16_apply, val_main_v18_apply, val_main_v14_apply,
    val_main_v15_apply, val_main_c_apply, val_main_v17_apply, val_main_c_3_apply]
  have e1 : idx_main_v14 (idx_main_v20
      (ix2 (⟨2 * b.val + c.val, by have := b.isLt; have := c.isLt; omega⟩ : Fin 16777216) (0 : Fin 1))) = ix2 b c := by
    funext a; refine Fin.ext ?_
    match a with
    | ⟨0, _⟩ => show (2 * b.val + c.val) / 2 = b.val; have := c.isLt; omega
    | ⟨1, _⟩ => show (2 * b.val + c.val) % 2 = c.val; have := c.isLt; omega
  rw [e1, v12_at]
  obtain ⟨k, hk⟩ := bin_range X T hfin b c
  exact wrap_id _ k hk

/-- The histogram at bin k is the number of entries whose bin is k. -/
theorem count_at (k : Fin 10) :
    val_main_v22 (F := Ideal) X T (ix1 k) = Cert.Ghm.count X T k := by
  unfold val_main_v22
  rw [scatterAdd_ideal, scatter_dims_eq, Cert.Lib.scatterAdd_vec_apply, val_main_v13_apply, val_main_cst_2_apply]
  show Ideal.ofBits .f32 0x00000000#32 + _ = _
  rw [Ideal.ofBits_zero_f32, zero_add, sum_flat]
  unfold Cert.Ghm.count
  refine Finset.sum_congr rfl fun b _ => Finset.sum_congr rfl fun c _ => ?_
  rw [v20_at X T hfin b c, val_main_v21_apply, val_main_cst_4_apply]
  show (if _ then Ideal.ofBits .f32 0x3F800000#32 else 0) = _
  rw [one_f32]
  unfold Cert.Ghm.mask
  obtain ⟨k', hk'⟩ := bin_range X T hfin b c
  by_cases h : Cert.Ghm.binAt X T b c = BitVec.ofNat 32 k.val
  · rw [if_pos h, if_pos ((toInt_eq_iff _ k' k hk').mpr h)]
  · rw [if_neg h, if_neg (fun h' => h ((toInt_eq_iff _ k' k hk').mp h'))]

omit hfin in
/-- The number of non-empty bins, from the histogram as the program holds it. -/
theorem nonempty_at (i : S_.Idx) :
    val_main_v27 (F := Ideal) X T i
      = Cert.Ghm.nonempty (fun k => val_main_v22 (F := Ideal) X T (ix1 k)) := by
  rw [val_main_v27_apply]
  unfold val_main_v26 val_main_v25 val_main_c_6
  rw [LibCount.sitofp_reduce_count_all (s := S10) (t := S_) (u := S_) (by decide) (val_main_v24 (F := Ideal) X T)
    Cert.ReferenceIdeal.Gen.natLt_1_32 Cert.ReferenceIdeal.Gen.reducesTo_S10_S_d0 (fun b => b.elim0)
    Cert.ReferenceIdeal.Gen.h_S_ i .f32]
  rw [Finset.card_filter, Nat.cast_sum, coe_sum]
  unfold Cert.Ghm.nonempty
  rw [← Equiv.sum_comp (idxEquiv1 (n := 10)).symm]
  refine Finset.sum_congr rfl fun k _ => ?_
  show (((if val_main_v24 (F := Ideal) X T (ix1 k) = 1#1 then 1 else 0 : ℕ) : ℝ) : EReal) = _
  rw [val_main_v24_apply, val_main_v23_apply, val_main_cst_5_apply]
  show (((if Ideal.cmp .ogt (val_main_v22 (F := Ideal) X T (ix1 k)) (Ideal.ofBits .f32 0x00000000#32) = 1#1 then 1 else 0 : ℕ) : ℝ) : EReal) = _
  rw [Ideal.ofBits_zero_f32]
  by_cases h : 0 < val_main_v22 (F := Ideal) X T (ix1 k)
  · rw [if_pos h]; simp [Ideal.cmp, h]
  · rw [if_neg h]; simp [Ideal.cmp, h]

omit hfin in
/-- The weight of bin k, from the histogram as the program holds it. -/
theorem beta_at (k : Fin 10) :
    val_main_v33 (F := Ideal) X T (ix1 k)
      = Cert.Ghm.beta (fun k => val_main_v22 (F := Ideal) X T (ix1 k)) k := by
  rw [val_main_v33_apply, val_main_v32_apply, val_main_cst_8_apply, val_main_v31_apply, val_main_v29_apply,
    val_main_v28_apply, nonempty_at, val_main_v30_apply, val_main_cst_7_apply,
    Ideal.hostDivf_def, Ideal.maximumf_def, Ideal.mulf_def, Ideal.ofBits_def, Ideal.ofBits_def]
  unfold Cert.Ghm.beta Cert.Ghm.nTot Cert.Ghm.epsGd
  rfl

/-- The gathered weight at (b, c) is the table's entry at the entry's bin: the replacement of negative indices and
    the clamp into [0, 9] both do nothing to a bin. -/
theorem weight_at (b : Fin 8388608) (c : Fin 2) (k : Fin 10) (hk : Cert.Ghm.binAt X T b c = BitVec.ofNat 32 k.val) :
    val_main_v40 (F := Ideal) X T (ix2 b c) = val_main_v33 (F := Ideal) X T (ix1 k) := by
  unfold val_main_v40
  rw [gather_dims_eq, gather_take_apply (N := 10) (by decide)]
  have hw : val_main_v39 (F := Ideal) X T (takeIdx (ix2 b c)) = BitVec.ofNat 32 k.val := by
    rw [val_main_v39_apply, val_main_v38_apply, val_main_v35_apply, val_main_v37_apply, val_main_v34_apply,
      val_main_c_9_apply, val_main_v36_apply, val_main_c_10_apply]
    have e1 : idx_main_v39 (takeIdx (ix2 b c)) = ix2 b c := by
      funext a; match a with | ⟨0, _⟩ => rfl | ⟨1, _⟩ => rfl
    rw [e1, v12_at, hk]
    exact wrap_id _ k rfl
  refine congrArg (fun j : Fin 10 => val_main_v33 (F := Ideal) X T (ix1 j)) (Fin.ext ?_)
  show min (val_main_v39 (F := Ideal) X T (takeIdx (ix2 b c))).toInt.toNat (10 - 1) = k.val
  rw [hw, toInt_bin]
  have := k.isLt
  omega

/-- The weighted cross-entropy at (b, c). -/
theorem term_at (b : Fin 8388608) (c : Fin 2) :
    val_main_v50 (F := Ideal) X T (ix2 b c)
      = Cert.Ghm.term X T (Cert.Ghm.beta (Cert.Ghm.count X T)) b c := by
  obtain ⟨k, hk⟩ := bin_range X T hfin b c
  have hc : (fun k => val_main_v22 (F := Ideal) X T (ix1 k)) = Cert.Ghm.count X T := funext (count_at X T hfin)
  rw [val_main_v50_apply, weight_at X T hfin b c k hk, beta_at, hc, val_main_v49_apply, val_main_v44_apply,
    val_main_v42_apply, val_main_v41_apply, val_main_cst_11_apply, val_main_v43_apply, hot_at, val_main_v48_apply,
    val_main_v47_apply, val_main_v46_apply, val_main_v45_apply]
  unfold Cert.Ghm.term
  rw [Cert.Ghm.weight_of_eq _ _ k hk]
  show _ * (max (X (ix2 b c)) (Ideal.ofBits .f32 0x00000000#32) - X (ix2 b c) * Cert.Ghm.hot (T (ix1 b)) c
    + Ideal.log1p (Ideal.exp (-(max (X (ix2 b c)) (-(X (ix2 b c))))))) = _
  rw [Ideal.ofBits_zero_f32]
  rfl

/-- The program's last stage is the loss. -/
theorem value_eq : val_main_v52 (F := Ideal) X T = fun _ => Cert.Ghm.loss X T := by
  funext i
  rw [val_main_v52_apply, val_main_v51_apply, val_main_cst_12_apply, val_main_cst_13_apply, Ideal.hostDivf_def,
    Ideal.ofBits_def, Ideal.ofBits_def, Ideal.ofBits_zero_f32, zero_add, sum_idx2]
  unfold Cert.Ghm.loss Cert.Ghm.total Cert.Ghm.nTot
  refine congrArg (fun t => Ideal.div t (Ideal.ofBits .f32 0x4B800000#32)) ?_
  exact Finset.sum_congr rfl fun b _ => Finset.sum_congr rfl fun c _ => term_at X T hfin b c

end Stages2

/-- The reference's result, a function of its two argument arrays, is the loss — when every logit is a real. -/
theorem result_eq (m : (ℓ : Loc nD τ sig) → Buf (Elt Ideal) ℓ) (c : Dev nD)
    (hfin : ∀ i, ∃ r : ℝ, (m ((c.tc : Thread nD τ).loc main_arg0) : S8388608x2.Idx → EReal) i = (r : EReal)) :
    (Cert.ReferenceIdeal.Value.res_out0 (F := Ideal) m c : S_.Idx → EReal)
      = fun _ => Cert.Ghm.loss (m ((c.tc : Thread nD τ).loc main_arg0)) (m ((c.tc : Thread nD τ).loc main_arg1)) := by
  show Cert.ReferenceIdeal.Value.res_main_v52 m c = _
  rw [Cert.ReferenceIdeal.Read.val_main_v52_eq]
  exact value_eq _ _ hfin

end Cert.ReferenceIdeal.RefValue

end
-- ==== Proof.Finite.lean ====
/-
  The precondition, read: every logit is a real number.
-/
import proofs.«420279_j11596411700016_1_alg».proof.Pre_finite_inputs
import proofs.«420279_j11596411700016_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Mathlib.Data.EReal.Basic
import Mathlib.Data.EReal.Operations

noncomputable section

namespace Cert.Finite

open Idealize.ShloMosaic

/-- The shape of a scalar has exactly one index: an index is a function out of the empty set of axes. -/
instance scalarIdx_subsingleton : Subsingleton Cert.Pre_finite_inputs.S_.Idx :=
  ⟨fun _ _ => funext fun d => d.elim0⟩

/-- The single-precision word with all exponent bits set and no fraction bit denotes +∞. -/
theorem ofBits_inf : Ideal.ofBits .f32 0x7F800000#32 = ⊤ := by
  simp [Ideal.ofBits, Ideal.ieee]

/-- An extended real whose absolute value max x (-x) is below +∞ is a real number: at -∞ and at +∞ one of
    x, -x is +∞. -/
theorem real_of_abs_lt_top (x : EReal) (h : max x (-x) < ⊤) : ∃ r : ℝ, x = (r : EReal) := by
  induction x using EReal.rec with
  | bot => rw [EReal.neg_bot, max_eq_right bot_le] at h; exact absurd h (lt_irrefl _)
  | coe r => exact ⟨r, rfl⟩
  | top => rw [EReal.neg_top, max_eq_left bot_le] at h; exact absurd h (lt_irrefl _)

/-- If the printed precondition answers "all ones" on the logits X, every entry of X is a real number. -/
theorem real_of_pre [Cert.Pre_finite_inputs.Facts]
    (X : Cert.Pre_finite_inputs.S8388608x2.Idx → EReal) (T : Cert.Pre_finite_inputs.S8388608.Idx → BitVec 32)
    (h : Cert.Pre_finite_inputs.fn (F := Ideal) X T = fun _ => 1#1) :
    ∀ i, ∃ r : ℝ, X i = (r : EReal) := by
  intro i
  -- the conjunction over all entries is 1, so the comparison at entry i is 1
  have h0 := congrFun h ValueIdx.ix0
  dsimp only [Cert.Pre_finite_inputs.fn] at h0
  have hi := Host.reduce_andi_all _ _ _ _ _ h0 i
  -- that comparison is |X i| < +∞
  have hi' : Ideal.cmp .olt (max (X i) (-(X i))) (Ideal.ofBits .f32 0x7F800000#32) = 1#1 := hi
  rw [ofBits_inf] at hi'
  have hlt : max (X i) (-(X i)) < ⊤ := by
    by_contra hn
    simp [Ideal.cmp, hn] at hi'
  exact real_of_abs_lt_top _ hlt

end Cert.Finite

end
-- ==== Proof.lean ====
/-
  The kernel (a two-pass gradient-harmonised loss: a histogram pass, then a weighted cross-entropy pass, each
  over 64 row tiles) and its jnp reference compute the same function of the logits and the targets.

  Both programs run and leave their arguments unchanged (the three frames). Over the extended reals the
  kernel's result is the loss of Spec.lean for any arguments: the tile sums regroup into sums over all rows, and
  the weight of an entry formed as a sum over the ten bins of (1 if the entry is in the bin) * (the bin's weight)
  is what it is. The reference's result is the same loss when every logit is finite — which the precondition
  says —: then every entry's bin is one of the ten, so the reference's index wrap and clamp are the identity,
  its scatter-add counts exactly the entries of each bin, and its gather reads the bin's weight.
-/
import proofs.«420279_j11596411700016_1_alg».proof.Defs
import proofs.«420279_j11596411700016_1_alg».proof.Proof.Gen.Kernel
import proofs.«420279_j11596411700016_1_alg».proof.Proof.Gen.Kernel.Frame
import proofs.«420279_j11596411700016_1_alg».proof.Proof.Gen.KernelIdeal
import proofs.«420279_j11596411700016_1_alg».proof.Proof.Gen.KernelIdeal.Frame
import proofs.«420279_j11596411700016_1_alg».proof.Proof.Gen.ReferenceIdeal
import proofs.«420279_j11596411700016_1_alg».proof.Proof.Gen.Pre_finite_inputs
import proofs.«420279_j11596411700016_1_alg».proof.Proof.KernelRun
import proofs.«420279_j11596411700016_1_alg».proof.Proof.KValue
import proofs.«420279_j11596411700016_1_alg».proof.Proof.RefRun
import proofs.«420279_j11596411700016_1_alg».proof.Proof.RefValue
import proofs.«420279_j11596411700016_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end at the loss of those arguments: the kernel for any
    arguments, the reference because the precondition makes every logit a real number. -/
theorem algebraic : Cert.algebraic_KernelIdeal_ReferenceIdeal := by
  intro m ρ m' ρ' hpre hagree
  refine ⟨fun c => fun _ => Cert.Ghm.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Value.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    have hfin : ∀ i, ∃ r : ℝ, (m' ((c.tc : Thread Cert.ReferenceIdeal.nD Cert.ReferenceIdeal.τ).loc Cert.ReferenceIdeal.main_arg0)
        : Cert.ReferenceIdeal.S8388608x2.Idx → EReal) i = (r : EReal) := by
      rw [(hagree c).1]
      exact Cert.Finite.real_of_pre _ _ (hpre c)
    refine (Cert.ReferenceIdeal.RefValue.result_eq m' c hfin).trans ?_
    rw [(hagree c).1, (hagree c).2]
    rfl

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
